-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x1000000 : Shape := ⟨2, ![2, 1000000]⟩
abbrev S1000000x64 : Shape := ⟨2, ![1000000, 64]⟩
abbrev S64x64 : Shape := ⟨2, ![64, 64]⟩
abbrev S50000 : Shape := ⟨1, ![50000]⟩
abbrev S128x64 : Shape := ⟨2, ![128, 64]⟩
abbrev S64 : Shape := ⟨1, ![64]⟩
abbrev S192x64 : Shape := ⟨2, ![192, 64]⟩
abbrev S_ : Shape := ⟨0, ![]⟩
abbrev S1x1000000 : Shape := ⟨2, ![1, 1000000]⟩
abbrev S1000000 : Shape := ⟨1, ![1000000]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S1000000x64 : S_.BroadcastsInDim S1000000x64 (![] : Fin 0 → Fin S1000000x64.rank)
  reducesTo_S1000000x64_S_d0_1 : S1000000x64.ReducesTo [0, 1] S_
  bcast_S_S64x64 : S_.BroadcastsInDim S64x64 (![] : Fin 0 → Fin S64x64.rank)
  reducesTo_S64x64_S_d0_1 : S64x64.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S192x64 : S_.BroadcastsInDim S192x64 (![] : Fin 0 → Fin S192x64.rank)
  reducesTo_S192x64_S_d0_1 : S192x64.ReducesTo [0, 1] S_
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  reducesTo_S1000000_S_d0 : S1000000.ReducesTo [0] S_
  bcast_S_S50000 : S_.BroadcastsInDim S50000 (![] : Fin 0 → Fin S50000.rank)
  reducesTo_S50000_S_d0 : S50000.ReducesTo [0] S_

variable [Facts]

def fn_part4 {F : FTy → Type} [FloatOps F] (main_arg4 : IVec S50000 32) (main_v67 : IVec S_ 1) (main_c_25 : IVec S_ 32) : IVec S_ 1 :=
  let main_v68 : IVec S50000 32 := broadcastInDim S50000 ![] bcast_S_S50000 main_c_25
  let main_v69 : IVec S50000 1 := cmpi .slt main_arg4 main_v68
  let main_c_26 : IVec S_ 32 := constantI S_ 32 64#32
  let main_v70 : IVec S50000 32 := broadcastInDim S50000 ![] bcast_S_S50000 main_c_26
  let main_v71 : IVec S50000 32 := addi main_arg4 main_v70
  let main_v72 : IVec S50000 32 := select main_v69 main_v71 main_arg4
  let main_c_27 : IVec S_ 32 := constantI S_ 32 0#32
  let main_v73 : IVec S50000 32 := broadcastInDim S50000 ![] bcast_S_S50000 main_c_27
  let main_v74 : IVec S50000 1 := cmpi .sge main_v72 main_v73
  let main_c_28 : IVec S_ 32 := constantI S_ 32 63#32
  let main_v75 : IVec S50000 32 := broadcastInDim S50000 ![] bcast_S_S50000 main_c_28
  let main_v76 : IVec S50000 1 := cmpi .sle main_v72 main_v75
  let main_v77 : IVec S50000 1 := andi main_v74 main_v76
  let main_c_29 : IVec S_ 1 := constantI S_ 1 1#1
  let main_v78 : IVec S_ 1 := (fun x v => Host.reduce IntOp.andi x v reducesTo_S50000_S_d0 h_S_) main_v77 main_c_29
  let main_v79 : IVec S_ 1 := andi main_v67 main_v78
  main_v79

def fn_part3 {F : FTy → Type} [FloatOps F] (main_arg1 : IVec S2x1000000 32) (main_arg4 : IVec S50000 32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : IVec S1x1000000 32 := (extractStridedSlice S1x1000000 ![0, 0] · slices_S2x1000000_S1x1000000_0_0) main_arg1
  let main_v55 : IVec S1000000 32 := shapeCast S1000000 main_v54 shapeCasts_S1x1000000_S1000000
  let main_c_20 : IVec S_ 32 := constantI S_ 32 0#32
  let main_v56 : IVec S1000000 32 := broadcastInDim S1000000 ![] bcast_S_S1000000 main_c_20
  let main_v57 : IVec S1000000 1 := cmpi .slt main_v55 main_v56
  let main_c_21 : IVec S_ 32 := constantI S_ 32 50000#32
  let main_v58 : IVec S1000000 32 := broadcastInDim S1000000 ![] bcast_S_S1000000 main_c_21
  let main_v59 : IVec S1000000 32 := addi main_v55 main_v58
  let main_v60 : IVec S1000000 32 := select main_v57 main_v59 main_v55
  let main_c_22 : IVec S_ 32 := constantI S_ 32 0#32
  let main_v61 : IVec S1000000 32 := broadcastInDim S1000000 ![] bcast_S_S1000000 main_c_22
  let main_v62 : IVec S1000000 1 := cmpi .sge main_v60 main_v61
  let main_c_23 : IVec S_ 32 := constantI S_ 32 49999#32
  let main_v63 : IVec S1000000 32 := broadcastInDim S1000000 ![] bcast_S_S1000000 main_c_23
  let main_v64 : IVec S1000000 1 := cmpi .sle main_v60 main_v63
  let main_v65 : IVec S1000000 1 := andi main_v62 main_v64
  let main_c_24 : IVec S_ 1 := constantI S_ 1 1#1
  let main_v66 : IVec S_ 1 := (fun x v => Host.reduce IntOp.andi x v reducesTo_S1000000_S_d0 h_S_) main_v65 main_c_24
  let main_v67 : IVec S_ 1 := andi main_v53 main_v66
  let main_c_25 : IVec S_ 32 := constantI S_ 32 0#32
  fn_part4 (F := F) main_arg4 main_v67 main_c_25

def fn_part2 {F : FTy → Type} [FloatOps F] (main_arg1 : IVec S2x1000000 32) (main_arg4 : IVec S50000 32) (main_arg9 : FVec F S192x64 .f32) (main_arg10 : FVec F S64 .f32) (main_arg11 : FVec F S64x64 .f32) (main_arg12 : FVec F S64 .f32) (main_v33 : IVec S_ 1) : IVec S_ 1 :=
  let main_v34 : FVec F S192x64 .f32 := Host.absf main_arg9
  let main_cst_12 : FVec F S_ .f32 := constant S_ .f32 0x7F800000#32
  let main_v35 : FVec F S192x64 .f32 := broadcastInDim S192x64 ![] bcast_S_S192x64 main_cst_12
  let main_v36 : IVec S192x64 1 := cmpf .olt main_v34 main_v35
  let main_c_13 : IVec S_ 1 := constantI S_ 1 1#1
  let main_v37 : IVec S_ 1 := (fun x v => Host.reduce IntOp.andi x v reducesTo_S192x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg1 main_arg4 main_v48 main_v49 main_v50

def fn_part1 {F : FTy → Type} [FloatOps F] (main_arg1 : IVec S2x1000000 32) (main_arg4 : IVec S50000 32) (main_arg6 : FVec F S64 .f32) (main_arg7 : FVec F S64x64 .f32) (main_arg8 : FVec F S64 .f32) (main_arg9 : FVec F S192x64 .f32) (main_arg10 : FVec F S64 .f32) (main_arg11 : FVec F S64x64 .f32) (main_arg12 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg4 main_arg9 main_arg10 main_arg11 main_arg12 main_v33

def fn {F : FTy → Type} [FloatOps F] (main_arg0 : FVec F S50000x64 .f32) (main_arg1 : IVec S2x1000000 32) (main_arg2 : FVec F S1000000x64 .f32) (main_arg3 : FVec F S64x64 .f32) (main_arg4 : IVec S50000 32) (main_arg5 : FVec F S128x64 .f32) (main_arg6 : FVec F S64 .f32) (main_arg7 : FVec F S64x64 .f32) (main_arg8 : FVec F S64 .f32) (main_arg9 : FVec F S192x64 .f32) (main_arg10 : FVec F S64 .f32) (main_arg11 : FVec F S64x64 .f32) (main_arg12 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S1000000x64 .f32 := Host.absf main_arg2
  let main_cst_0 : FVec F S_ .f32 := constant S_ .f32 0x7F800000#32
  let main_v5 : FVec F S1000000x64 .f32 := broadcastInDim S1000000x64 ![] bcast_S_S1000000x64 main_cst_0
  let main_v6 : IVec S1000000x64 1 := cmpf .olt main_v4 main_v5
  let main_c_1 : IVec S_ 1 := constantI S_ 1 1#1
  let main_v7 : IVec S_ 1 := (fun x v => Host.reduce IntOp.andi x v reducesTo_S1000000x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg1 main_arg4 main_arg6 main_arg7 main_arg8 main_arg9 main_arg10 main_arg11 main_arg12 main_v13 main_v16
-- ==== Kernel.lean ====
abbrev S50000x64 : Shape := ⟨2, ![50000, 64]⟩
abbrev S2x1000000 : Shape := ⟨2, ![2, 1000000]⟩
abbrev S1000000x64 : Shape := ⟨2, ![1000000, 64]⟩
abbrev S64x64 : Shape := ⟨2, ![64, 64]⟩
abbrev S50000 : Shape := ⟨1, ![50000]⟩
abbrev S128x64 : Shape := ⟨2, ![128, 64]⟩
abbrev S64 : Shape := ⟨1, ![64]⟩
abbrev S192x64 : Shape := ⟨2, ![192, 64]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1 : Shape := ⟨1, ![1]⟩
abbrev S1x1 : Shape := ⟨2, ![1, 1]⟩
abbrev S1000000x128 : Shape := ⟨2, ![1000000, 128]⟩
abbrev S10000x128 : Shape := ⟨2, ![10000, 128]⟩
abbrev S10000x64 : Shape := ⟨2, ![10000, 64]⟩
abbrev S1x64 : Shape := ⟨2, ![1, 64]⟩
abbrev S50000x1 : Shape := ⟨2, ![50000, 1]⟩
abbrev S5000x64 : Shape := ⟨2, ![5000, 64]⟩
abbrev S5000x192 : Shape := ⟨2, ![5000, 192]⟩

abbrev nBuf : Space → Nat
  | .hbm => 83
  | .vmem => 20
  | .smem => 0
  | _ => 0

abbrev bufTy : (tb : Table) → Fin (tcTables nBuf tb) → BufTy
  | .hbm, ⟨0, _⟩ => ⟨S50000x64, .f32⟩
  | .hbm, ⟨1, _⟩ => ⟨S2x1000000, .i32⟩
  | .hbm, ⟨2, _⟩ => ⟨S1000000x64, .f32⟩
  | .hbm, ⟨3, _⟩ => ⟨S64x64, .f32⟩
  | .hbm, ⟨4, _⟩ => ⟨S50000, .i32⟩
  | .hbm, ⟨5, _⟩ => ⟨S128x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S192x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S1x1000000, .i32⟩
  | .hbm, ⟨14, _⟩ => ⟨S1000000, .i32⟩
  | .hbm, ⟨15, _⟩ => ⟨S1x1000000, .i32⟩
  | .hbm, ⟨16, _⟩ => ⟨S1000000, .i32⟩
  | .hbm, ⟨17, _⟩ => ⟨S_, .i32⟩
  | .hbm, ⟨18, _⟩ => ⟨S1000000, .i32⟩
  | .hbm, ⟨19, _⟩ => ⟨S1000000, .i1⟩
  | .hbm, ⟨20, _⟩ => ⟨S_, .i32⟩
  | .hbm, ⟨21, _⟩ => ⟨S1000000, .i32⟩
  | .hbm, ⟨22, _⟩ => ⟨S1000000, .i32⟩
  | .hbm, ⟨23, _⟩ => ⟨S1000000, .i32⟩
  | .hbm, ⟨24, _⟩ => ⟨S1000000x1, .i32⟩
  | .hbm, ⟨25, _⟩ => ⟨S1, .i32⟩
  | .hbm, ⟨26, _⟩ => ⟨S_, .i32⟩
  | .hbm, ⟨27, _⟩ => ⟨S1000000x1, .i32⟩
  | .hbm, ⟨28, _⟩ => ⟨S1000000x1, .i1⟩
  | .hbm, ⟨29, _⟩ => ⟨S1x1, .i32⟩
  | .hbm, ⟨30, _⟩ => ⟨S1000000x1, .i32⟩
  | .hbm, ⟨31, _⟩ => ⟨S1000000x1, .i1⟩
  | .hbm, ⟨32, _⟩ => ⟨S1000000x1, .i1⟩
  | .hbm, ⟨33, _⟩ => ⟨S_, .i1⟩
  | .hbm, ⟨34, _⟩ => ⟨S1000000, .i1⟩
  | .hbm, ⟨35, _⟩ => ⟨S1000000x64, .f32⟩
  | .hbm, ⟨36, _⟩ => ⟨S1000000x64, .i1⟩
  | .hbm, ⟨37, _⟩ => ⟨S_, .f32⟩
  | .hbm, ⟨38, _⟩ => ⟨S1000000x64, .f32⟩
  | .hbm, ⟨39, _⟩ => ⟨S1000000x64, .f32⟩
  | .hbm, ⟨40, _⟩ => ⟨S1000000x128, .f32⟩
  | .hbm, ⟨41, _⟩ => ⟨S1000000x64, .f32⟩
  | .hbm, ⟨42, _⟩ => ⟨S_, .f32⟩
  | .hbm, ⟨43, _⟩ => ⟨S50000x64, .f32⟩
  | .hbm, ⟨44, _⟩ => ⟨S1000000x1, .i32⟩
  | .hbm, ⟨45, _⟩ => ⟨S50000x64, .f32⟩
  | .hbm, ⟨46, _⟩ => ⟨S_, .f32⟩
  | .hbm, ⟨47, _⟩ => ⟨S1000000, .f32⟩
  | .hbm, ⟨48, _⟩ => ⟨S_, .f32⟩
  | .hbm, ⟨49, _⟩ => ⟨S50000, .f32⟩
  | .hbm, ⟨50, _⟩ => ⟨S1000000x1, .i32⟩
  | .hbm, ⟨51, _⟩ => ⟨S50000, .f32⟩
  | .hbm, ⟨52, _⟩ => ⟨S_, .f32⟩
  | .hbm, ⟨53, _⟩ => ⟨S_, .f32⟩
  | .hbm, ⟨54, _⟩ => ⟨S50000, .f32⟩
  | .hbm, ⟨55, _⟩ => ⟨S50000, .f32⟩
  | .hbm, ⟨56, _⟩ => ⟨S50000x1, .f32⟩
  | .hbm, ⟨57, _⟩ => ⟨S50000x64, .f32⟩
  | .hbm, ⟨58, _⟩ => ⟨S50000x64, .f32⟩
  | .hbm, ⟨59, _⟩ => ⟨S_, .i32⟩
  | .hbm, ⟨60, _⟩ => ⟨S50000, .i32⟩
  | .hbm, ⟨61, _⟩ => ⟨S50000, .i1⟩
  | .hbm, ⟨62, _⟩ => ⟨S_, .i32⟩
  | .hbm, ⟨63, _⟩ => ⟨S50000, .i32⟩
  | .hbm, ⟨64, _⟩ => ⟨S50000, .i32⟩
  | .hbm, ⟨65, _⟩ => ⟨S50000, .i32⟩
  | .hbm, ⟨66, _⟩ => ⟨S50000x1, .i32⟩
  | .hbm, ⟨67, _⟩ => ⟨S1, .i32⟩
  | .hbm, ⟨68, _⟩ => ⟨S_, .i32⟩
  | .hbm, ⟨69, _⟩ => ⟨S50000x1, .i32⟩
  | .hbm, ⟨70, _⟩ => ⟨S50000x1, .i1⟩
  | .hbm, ⟨71, _⟩ => ⟨S1x1, .i32⟩
  | .hbm, ⟨72, _⟩ => ⟨S50000x1, .i32⟩
  | .hbm, ⟨73, _⟩ => ⟨S50000x1, .i1⟩
  | .hbm, ⟨74, _⟩ => ⟨S50000x1, .i1⟩
  | .hbm, ⟨75, _⟩ => ⟨S_, .i1⟩
  | .hbm, ⟨76, _⟩ => ⟨S50000, .i1⟩
  | .hbm, ⟨77, _⟩ => ⟨S50000x64, .f32⟩
  | .hbm, ⟨78, _⟩ => ⟨S50000x64, .i1⟩
  | .hbm, ⟨79, _⟩ => ⟨S_, .f32⟩
  | .hbm, ⟨80, _⟩ => ⟨S50000x64, .f32⟩
  | .hbm, ⟨81, _⟩ => ⟨S50000x64, .f32⟩
  | .hbm, ⟨82, _⟩ => ⟨S50000x64, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S64, .f32⟩
  | .local _ .vmem, ⟨4, _⟩ => ⟨S64x64, .f32⟩
  | .local _ .vmem, ⟨5, _⟩ => ⟨S64, .f32⟩
  | .local _ .vmem, ⟨6, _⟩ => ⟨S10000x64, .f32⟩
  | .local _ .vmem, ⟨7, _⟩ => ⟨S10000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S192x64, .f32⟩
  | .local _ .vmem, ⟨15, _⟩ => ⟨S64, .f32⟩
  | .local _ .vmem, ⟨16, _⟩ => ⟨S64x64, .f32⟩
  | .local _ .vmem, ⟨17, _⟩ => ⟨S64, .f32⟩
  | .local _ .vmem, ⟨18, _⟩ => ⟨S5000x64, .f32⟩
  | .local _ .vmem, ⟨19, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_cst : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_cst_0 : Ref sig .tc := ⟨.hbm, 46, rfl⟩
abbrev main_v10 : Ref sig .tc := ⟨.hbm, 47, rfl⟩
abbrev main_cst_1 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_cst_2 : Ref sig .tc := ⟨.hbm, 52, rfl⟩
abbrev main_call1_v0 : Ref sig .tc := ⟨.hbm, 53, rfl⟩
abbrev main_call1_v1 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_call2_c : Ref sig .tc := ⟨.hbm, 59, rfl⟩
abbrev main_call2_v0 : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_v5 : Ref sig .tc := ⟨.hbm, 66, rfl⟩
abbrev main_call2_c_1 : Ref sig .tc := ⟨.hbm, 67, rfl⟩
abbrev main_call2_c_2 : Ref sig .tc := ⟨.hbm, 68, rfl⟩
abbrev main_call2_v6 : Ref sig .tc := ⟨.hbm, 69, rfl⟩
abbrev main_call2_v7 : Ref sig .tc := ⟨.hbm, 70, rfl⟩
abbrev main_call2_v8 : Ref sig .tc := ⟨.hbm, 71, rfl⟩
abbrev main_call2_v9 : Ref sig .tc := ⟨.hbm, 72, rfl⟩
abbrev main_call2_v10 : Ref sig .tc := ⟨.hbm, 73, rfl⟩
abbrev main_call2_v11 : Ref sig .tc := ⟨.hbm, 74, rfl⟩
abbrev main_call2_c_3 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_call2_cst : Ref sig .tc := ⟨.hbm, 79, rfl⟩
abbrev main_call2_v15 : Ref sig .tc := ⟨.hbm, 80, rfl⟩
abbrev main_v18 : Ref sig .tc := ⟨.hbm, 81, rfl⟩
abbrev main_v19 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S192x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  reducesTo_S1000000x1_S1000000_d1 : S1000000x1.ReducesTo [1] S1000000
  h_S_ : 0 < S_.numel
  bcast_S1000000_S1000000x64_0 : S1000000.BroadcastsInDim S1000000x64 (![0] : Fin 1 → Fin S1000000x64.rank)
  bcast_S_S1000000x64 : S_.BroadcastsInDim S1000000x64 (![] : Fin 0 → Fin S1000000x64.rank)
  concatenates_S1000000x64_S1000000x64_S1000000x128_d1 : Shape.Concatenates [S1000000x64, S1000000x64] S1000000x128 1
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  inb_S10000x64_S10000x64_0_0 : ∀ a, (![0, 0] : Fin 2 → Nat) a + S10000x64.size a ≤ S10000x64.size a
  h_S10000x64 : 0 < S10000x64.numel
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S_S50000x1 : S_.BroadcastsInDim S50000x1 (![] : Fin 0 → Fin S50000x1.rank)
  bcast_S1x1_S50000x1_0_1 : S1x1.BroadcastsInDim S50000x1 (![0, 1] : Fin 2 → Fin S50000x1.rank)
  reducesTo_S50000x1_S50000_d1 : S50000x1.ReducesTo [1] S50000
  bcast_S50000_S50000x64_0 : S50000.BroadcastsInDim S50000x64 (![0] : Fin 1 → Fin S50000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  concatenates_S5000x64_S5000x64_S5000x64_S5000x192_d1 : Shape.Concatenates [S5000x64, S5000x64, S5000x64] S5000x192 1
  inb_S192x64_S192x64_0_0 : ∀ a, (![0, 0] : Fin 2 → Nat) a + S192x64.size a ≤ S192x64.size a
  h_S192x64 : 0 < S192x64.numel
  broadcasts_S1x64_S5000x64 : S1x64.Broadcasts S5000x64
  gather_S50000x64_S1000000x1_S1000000x64_1_0_n_n_0_1_164_wf : GatherDims.WF S50000x64 S1000000x1 S1000000x64 [1] [0] [] [0] [] 1 ![1, 64]
  dot_S10000x128_S128x64_S10000x64_1_0_0_1_n_n_wf : DotDims.WF S10000x128 S128x64 S10000x64 [1] [0] [0] [1] [] []
  dot_S10000x64_S64x64_S10000x64_1_0_0_1_n_n_wf : DotDims.WF S10000x64 S64x64 S10000x64 [1] [0] [0] [1] [] []
  scatter_S50000x64_S1000000x1_S1000000x64_1_0_0_1_wf : ScatterDims.WF S50000x64 S1000000x1 S1000000x64 [1] [0] [0] 1
  scatter_S50000_S1000000x1_S1000000_n_0_0_1_wf : ScatterDims.WF S50000 S1000000x1 S1000000 [] [0] [0] 1
  gather_S64x64_S50000x1_S50000x64_1_0_n_n_0_1_164_wf : GatherDims.WF S64x64 S50000x1 S50000x64 [1] [0] [] [0] [] 1 ![1, 64]
  dot_S5000x192_S192x64_S5000x64_1_0_0_1_n_n_wf : DotDims.WF S5000x192 S192x64 S5000x64 [1] [0] [0] [1] [] []
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S1000000x128.size a
  hwx0_0 : ∀ i : grid0.Coords, EltTy.bits .f32 = 32 ∨ (Rect.block (s := S1000000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S1000000x64.size a
  hwx0_5 : ∀ i : grid0.Coords, EltTy.bits .f32 = 32 ∨ (Rect.block (s := S1000000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S192x64.size a ≤ S192x64.size a
  hwx1_3 : ∀ i : grid1.Coords, EltTy.bits .f32 = 32 ∨ (Rect.block (s := S192x64) S192x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64.size a ≤ S64.size a
  hwx1_6 : ∀ i : grid1.Coords, EltTy.bits .f32 = 32 ∨ (Rect.block (s := S64) S64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S50000x64.size a
  hwx1_7 : ∀ i : grid1.Coords, EltTy.bits .f32 = 32 ∨ (Rect.block (s := S50000x64) S5000x64.size (cc1_transform_7 i) (hinb1_7 i)).WholeWords (EltTy.packing .f32)

variable [Facts₀]

def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S50000x64_S1000000x1_S1000000x64_1_0_0_1 : ScatterDims S50000x64 S1000000x1 S1000000x64 where
  updateWindowDims := [1]
  insertedWindowDims := [0]
  scatterDimsToOperandDims := [0]
  indexVectorDim := 1
  wf := scatter_S50000x64_S1000000x1_S1000000x64_1_0_0_1_wf
def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def gather_S64x64_S50000x1_S50000x64_1_0_n_n_0_1_164 : GatherDims S64x64 S50000x1 S50000x64 where
  offsetDims := [1]
  collapsedSliceDims := [0]
  operandBatchingDims := []
  startIndicesBatchingDims := []
  startIndexMap := [0]
  indexVectorDim := 1
  sliceSizes := ![1, 64]
  wf := gather_S64x64_S50000x1_S50000x64_1_0_n_n_0_1_164_wf
def dot_S5000x192_S192x64_S5000x64_1_0_0_1_n_n : DotDims S5000x192 S192x64 S5000x64 where
  lhsContracting := [1]
  rhsContracting := [0]
  lhsNonContracting := [0]
  rhsNonContracting := [1]
  lhsBatch := []
  rhsBatch := []
  wf := dot_S5000x192_S192x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v5) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S192x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg11) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg12) S64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v19) S5000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x1000000 : Shape := ⟨2, ![2, 1000000]⟩
abbrev S1000000x64 : Shape := ⟨2, ![1000000, 64]⟩
abbrev S64x64 : Shape := ⟨2, ![64, 64]⟩
abbrev S50000 : Shape := ⟨1, ![50000]⟩
abbrev S128x64 : Shape := ⟨2, ![128, 64]⟩
abbrev S64 : Shape := ⟨1, ![64]⟩
abbrev S192x64 : Shape := ⟨2, ![192, 64]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x128 : Shape := ⟨2, ![1000000, 128]⟩
abbrev S1x64 : Shape := ⟨2, ![1, 64]⟩
abbrev S50000x1 : Shape := ⟨2, ![50000, 1]⟩
abbrev S50000x192 : Shape := ⟨2, ![50000, 192]⟩

abbrev nBuf : Space → Nat
  | .hbm => 76
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x1000000, .i32⟩
  | .hbm, ⟨2, _⟩ => ⟨S1000000x64, .f32⟩
  | .hbm, ⟨3, _⟩ => ⟨S64x64, .f32⟩
  | .hbm, ⟨4, _⟩ => ⟨S50000, .i32⟩
  | .hbm, ⟨5, _⟩ => ⟨S128x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S192x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S1x1000000, .i32⟩
  | .hbm, ⟨14, _⟩ => ⟨S1000000, .i32⟩
  | .hbm, ⟨15, _⟩ => ⟨S1x1000000, .i32⟩
  | .hbm, ⟨16, _⟩ => ⟨S1000000, .i32⟩
  | .hbm, ⟨17, _⟩ => ⟨S_, .i32⟩
  | .hbm, ⟨18, _⟩ => ⟨S1000000, .i32⟩
  | .hbm, ⟨19, _⟩ => ⟨S1000000, .i1⟩
  | .hbm, ⟨20, _⟩ => ⟨S_, .i32⟩
  | .hbm, ⟨21, _⟩ => ⟨S1000000, .i32⟩
  | .hbm, ⟨22, _⟩ => ⟨S1000000, .i32⟩
  | .hbm, ⟨23, _⟩ => ⟨S1000000, .i32⟩
  | .hbm, ⟨24, _⟩ => ⟨S1000000x1, .i32⟩
  | .hbm, ⟨25, _⟩ => ⟨S1000000x64, .f32⟩
  | .hbm, ⟨26, _⟩ => ⟨S1000000x128, .f32⟩
  | .hbm, ⟨27, _⟩ => ⟨S1000000x64, .f32⟩
  | .hbm, ⟨28, _⟩ => ⟨S1x64, .f32⟩
  | .hbm, ⟨29, _⟩ => ⟨S1000000x64, .f32⟩
  | .hbm, ⟨30, _⟩ => ⟨S1000000x64, .f32⟩
  | .hbm, ⟨31, _⟩ => ⟨S_, .f32⟩
  | .hbm, ⟨32, _⟩ => ⟨S1000000x64, .f32⟩
  | .hbm, ⟨33, _⟩ => ⟨S1000000x64, .f32⟩
  | .hbm, ⟨34, _⟩ => ⟨S1000000x64, .f32⟩
  | .hbm, ⟨35, _⟩ => ⟨S1x64, .f32⟩
  | .hbm, ⟨36, _⟩ => ⟨S1000000x64, .f32⟩
  | .hbm, ⟨37, _⟩ => ⟨S1000000x64, .f32⟩
  | .hbm, ⟨38, _⟩ => ⟨S_, .f32⟩
  | .hbm, ⟨39, _⟩ => ⟨S50000x64, .f32⟩
  | .hbm, ⟨40, _⟩ => ⟨S1000000x1, .i32⟩
  | .hbm, ⟨41, _⟩ => ⟨S50000x64, .f32⟩
  | .hbm, ⟨42, _⟩ => ⟨S_, .f32⟩
  | .hbm, ⟨43, _⟩ => ⟨S1000000, .f32⟩
  | .hbm, ⟨44, _⟩ => ⟨S_, .f32⟩
  | .hbm, ⟨45, _⟩ => ⟨S50000, .f32⟩
  | .hbm, ⟨46, _⟩ => ⟨S1000000x1, .i32⟩
  | .hbm, ⟨47, _⟩ => ⟨S50000, .f32⟩
  | .hbm, ⟨48, _⟩ => ⟨S_, .f32⟩
  | .hbm, ⟨49, _⟩ => ⟨S_, .f32⟩
  | .hbm, ⟨50, _⟩ => ⟨S50000, .f32⟩
  | .hbm, ⟨51, _⟩ => ⟨S50000, .f32⟩
  | .hbm, ⟨52, _⟩ => ⟨S50000x1, .f32⟩
  | .hbm, ⟨53, _⟩ => ⟨S50000x64, .f32⟩
  | .hbm, ⟨54, _⟩ => ⟨S50000x64, .f32⟩
  | .hbm, ⟨55, _⟩ => ⟨S_, .i32⟩
  | .hbm, ⟨56, _⟩ => ⟨S50000, .i32⟩
  | .hbm, ⟨57, _⟩ => ⟨S50000, .i1⟩
  | .hbm, ⟨58, _⟩ => ⟨S_, .i32⟩
  | .hbm, ⟨59, _⟩ => ⟨S50000, .i32⟩
  | .hbm, ⟨60, _⟩ => ⟨S50000, .i32⟩
  | .hbm, ⟨61, _⟩ => ⟨S50000, .i32⟩
  | .hbm, ⟨62, _⟩ => ⟨S50000x1, .i32⟩
  | .hbm, ⟨63, _⟩ => ⟨S50000x64, .f32⟩
  | .hbm, ⟨64, _⟩ => ⟨S50000x192, .f32⟩
  | .hbm, ⟨65, _⟩ => ⟨S50000x64, .f32⟩
  | .hbm, ⟨66, _⟩ => ⟨S1x64, .f32⟩
  | .hbm, ⟨67, _⟩ => ⟨S50000x64, .f32⟩
  | .hbm, ⟨68, _⟩ => ⟨S50000x64, .f32⟩
  | .hbm, ⟨69, _⟩ => ⟨S_, .f32⟩
  | .hbm, ⟨70, _⟩ => ⟨S50000x64, .f32⟩
  | .hbm, ⟨71, _⟩ => ⟨S50000x64, .f32⟩
  | .hbm, ⟨72, _⟩ => ⟨S50000x64, .f32⟩
  | .hbm, ⟨73, _⟩ => ⟨S1x64, .f32⟩
  | .hbm, ⟨74, _⟩ => ⟨S50000x64, .f32⟩
  | .hbm, ⟨75, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_1 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_2 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_4 : Ref sig .tc := ⟨.hbm, 48, rfl⟩
abbrev main_call0_v0 : Ref sig .tc := ⟨.hbm, 49, rfl⟩
abbrev main_call0_v1 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_5 : Ref sig .tc := ⟨.hbm, 55, rfl⟩
abbrev main_v33 : Ref sig .tc := ⟨.hbm, 56, rfl⟩
abbrev main_v34 : Ref sig .tc := ⟨.hbm, 57, rfl⟩
abbrev main_c_6 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_7 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x64_S1000000x64_S1000000x128_d1 : Shape.Concatenates [S1000000x64, S1000000x64] S1000000x128 1
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  concatenates_S50000x64_S50000x64_S50000x64_S50000x192_d1 : Shape.Concatenates [S50000x64, S50000x64, S50000x64] S50000x192 1
  bcast_S1x64_S50000x64_0_1 : S1x64.BroadcastsInDim S50000x64 (![0, 1] : Fin 2 → Fin S50000x64.rank)
  gather_S50000x64_S1000000x1_S1000000x64_1_0_n_n_0_1_164_wf : GatherDims.WF S50000x64 S1000000x1 S1000000x64 [1] [0] [] [0] [] 1 ![1, 64]
  dot_S1000000x128_S128x64_S1000000x64_1_0_0_1_n_n_wf : DotDims.WF S1000000x128 S128x64 S1000000x64 [1] [0] [0] [1] [] []
  dot_S1000000x64_S64x64_S1000000x64_1_0_0_1_n_n_wf : DotDims.WF S1000000x64 S64x64 S1000000x64 [1] [0] [0] [1] [] []
  scatter_S50000x64_S1000000x1_S1000000x64_1_0_0_1_wf : ScatterDims.WF S50000x64 S1000000x1 S1000000x64 [1] [0] [0] 1
  scatter_S50000_S1000000x1_S1000000_n_0_0_1_wf : ScatterDims.WF S50000 S1000000x1 S1000000 [] [0] [0] 1
  gather_S64x64_S50000x1_S50000x64_1_0_n_n_0_1_164_wf : GatherDims.WF S64x64 S50000x1 S50000x64 [1] [0] [] [0] [] 1 ![1, 64]
  dot_S50000x192_S192x64_S50000x64_1_0_0_1_n_n_wf : DotDims.WF S50000x192 S192x64 S50000x64 [1] [0] [0] [1] [] []
  dot_S50000x64_S64x64_S50000x64_1_0_0_1_n_n_wf : DotDims.WF S50000x64 S64x64 S50000x64 [1] [0] [0] [1] [] []

variable [Facts₀]

def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def dot_S1000000x128_S128x64_S1000000x64_1_0_0_1_n_n : DotDims S1000000x128 S128x64 S1000000x64 where
  lhsContracting := [1]
  rhsContracting := [0]
  lhsNonContracting := [0]
  rhsNonContracting := [1]
  lhsBatch := []
  rhsBatch := []
  wf := dot_S1000000x128_S128x64_S1000000x64_1_0_0_1_n_n_wf
def dot_S1000000x64_S64x64_S1000000x64_1_0_0_1_n_n : DotDims S1000000x64 S64x64 S1000000x64 where
  lhsContracting := [1]
  rhsContracting := [0]
  lhsNonContracting := [0]
  rhsNonContracting := [1]
  lhsBatch := []
  rhsBatch := []
  wf := dot_S1000000x64_S64x64_S1000000x64_1_0_0_1_n_n_wf
def scatter_S50000x64_S1000000x1_S1000000x64_1_0_0_1 : ScatterDims S50000x64 S1000000x1 S1000000x64 where
  updateWindowDims := [1]
  insertedWindowDims := [0]
  scatterDimsToOperandDims := [0]
  indexVectorDim := 1
  wf := scatter_S50000x64_S1000000x1_S1000000x64_1_0_0_1_wf
def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def gather_S64x64_S50000x1_S50000x64_1_0_n_n_0_1_164 : GatherDims S64x64 S50000x1 S50000x64 where
  offsetDims := [1]
  collapsedSliceDims := [0]
  operandBatchingDims := []
  startIndicesBatchingDims := []
  startIndexMap := [0]
  indexVectorDim := 1
  sliceSizes := ![1, 64]
  wf := gather_S64x64_S50000x1_S50000x64_1_0_n_n_0_1_164_wf
def dot_S50000x192_S192x64_S50000x64_1_0_0_1_n_n : DotDims S50000x192 S192x64 S50000x64 where
  lhsContracting := [1]
  rhsContracting := [0]
  lhsNonContracting := [0]
  rhsNonContracting := [1]
  lhsBatch := []
  rhsBatch := []
  wf := dot_S50000x192_S192x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.Terms.lean ====
/-
  The two perceptrons of the message-passing layer and the row-wise joining of three node tables, each as ONE
  whole-array term of its operands, in the host's own operations.

  edgeMLP E W1 b1 W2 b2 = max(E · W1 + b1, 0) · W2 + b2   over the million edge rows (E has 128 columns),
  nodeMLP H W3 b3 W4 b4 = max(H · W3 + b3, 0) · W4 + b4   over the fifty thousand node rows (H has 192 columns),
  joined x a u          = [x | a | u], the three 64-column tables side by side.

  Each row of the result depends on the same row of E (or H) only, which is why a kernel may compute it block of
  rows by block of rows.
-/
import proofs.«423583_j24773371363898_1_alg».proof.Proof.Gen.ReferenceIdeal

noncomputable section

namespace Cert.Terms

open Idealize.ShloMosaic Cert.ReferenceIdeal
open Cert.ReferenceIdeal.Facts₀ Cert.ReferenceIdeal.Facts

variable {F : FTy → Type} [FloatOps F]

/-- A bias of 64 entries laid under every edge row. -/
def biasE (b : FVec F S64 .f32) : FVec F S1000000x64 .f32 :=
  broadcastInDim S1000000x64 ![0, 1] bcast_S1x64_S1000000x64_0_1 (broadcastInDim S1x64 ![1] bcast_S64_S1x64_1 b)

/-- A bias of 64 entries laid under every node row. -/
def biasN (b : FVec F S64 .f32) : FVec F S50000x64 .f32 :=
  broadcastInDim S50000x64 ![0, 1] bcast_S1x64_S50000x64_0_1 (broadcastInDim S1x64 ![1] bcast_S64_S1x64_1 b)

/-- The edge perceptron: max(E · W1 + b1, 0) · W2 + b2. -/
def edgeMLP (E : FVec F S1000000x128 .f32) (W1 : FVec F S128x64 .f32) (b1 : FVec F S64 .f32) (W2 : FVec F S64x64 .f32)
    (b2 : FVec F S64 .f32) : FVec F S1000000x64 .f32 :=
  addf (Host.dotGeneral dot_S1000000x64_S64x64_S1000000x64_1_0_0_1_n_n none
    (maximumf (addf (Host.dotGeneral dot_S1000000x128_S128x64_S1000000x64_1_0_0_1_n_n none E W1) (biasE b1))
      (broadcastInDim S1000000x64 ![] bcast_S_S1000000x64 (constant S_ .f32 0x00000000#32))) W2) (biasE b2)

/-- The node perceptron: max(H · W3 + b3, 0) · W4 + b4. -/
def nodeMLP (H : FVec F S50000x192 .f32) (W3 : FVec F S192x64 .f32) (b3 : FVec F S64 .f32) (W4 : FVec F S64x64 .f32)
    (b4 : FVec F S64 .f32) : FVec F S50000x64 .f32 :=
  addf (Host.dotGeneral dot_S50000x64_S64x64_S50000x64_1_0_0_1_n_n none
    (maximumf (addf (Host.dotGeneral dot_S50000x192_S192x64_S50000x64_1_0_0_1_n_n none H W3) (biasN b3))
      (broadcastInDim S50000x64 ![] bcast_S_S50000x64 (constant S_ .f32 0x00000000#32))) W4) (biasN b4)

/-- Three node tables of 64 columns side by side: columns 0–63 from x, 64–127 from a, 128–191 from u. -/
def joined (x a u : FVec F S50000x64 .f32) : FVec F S50000x192 .f32 :=
  concatenate S50000x192 1 [⟨S50000x64, x⟩, ⟨S50000x64, a⟩, ⟨S50000x64, u⟩] concatenates_S50000x64_S50000x64_S50000x64_S50000x192_d1

end Cert.Terms

end
-- ==== Proof.HostTerms.lean ====
/-
  The host-side pieces of the message-passing layer, each as one whole-array term in the host's own operations, and
  the layer as their composition.

  An edge list E holds two rows of a million node indices: sources (row 0) and destinations (row 1).
  srcStart / batchStart  a vector of indices with a negative index wrapped (i + n where i < 0), laid as a column of
                         start indices for a gather along the first axis;
  gatherSrc x r          row e of the result is row r(e) of the node table x (the host's gather clamps a start index
                         into the table; within the table's range it reads exactly that row);
  gatherBatch u b        row n of the result is row b(n) of the 64-row graph table u;
  edgeIn g ea            [g | ea], the gathered source rows beside the edge attributes: 128 columns;
  scatterMean d e        for each node, the sum of the rows e(k) over the edges k with destination d(k) = node, divided
                         by max(1, the number of such edges);
  layer                  nodeMLP [x | scatterMean(dst, edgeMLP [x[src] | ea]) | u[batch]].
-/
import proofs.«423583_j24773371363898_1_alg».proof.Proof.Terms

noncomputable section

namespace Cert.Terms

open Idealize.ShloMosaic Cert.ReferenceIdeal
open Cert.ReferenceIdeal.Facts₀ Cert.ReferenceIdeal.Facts

variable {F : FTy → Type} [FloatOps F]

/-- The sources: row 0 of the edge list, as a vector. -/
def srcOf (E : IVec S2x1000000 32) : IVec S1000000 32 :=
  shapeCast S1000000 (extractStridedSlice S1x1000000 ![0, 0] E slices_S2x1000000_S1x1000000_0_0) shapeCasts_S1x1000000_S1000000

/-- The destinations: row 1 of the edge list, as a vector. -/
def dstOf (E : IVec S2x1000000 32) : IVec S1000000 32 :=
  shapeCast S1000000 (extractStridedSlice S1x1000000 ![1, 0] E slices_S2x1000000_S1x1000000_1_0) shapeCasts_S1x1000000_S1000000

/-- A source index with a negative one wrapped by the table's 50000 rows. -/
def wrapSrc (r : IVec S1000000 32) : IVec S1000000 32 :=
  select (cmpi .slt r (broadcastInDim S1000000 ![] bcast_S_S1000000 (constantI S_ 32 0#32)))
    (addi r (broadcastInDim S1000000 ![] bcast_S_S1000000 (constantI S_ 32 50000#32))) r

/-- The wrapped source indices as a column of start indices. -/
def srcStart (r : IVec S1000000 32) : IVec S1000000x1 32 :=
  broadcastInDim S1000000x1 ![0] bcast_S1000000_S1000000x1_0 (wrapSrc r)

/-- The node table's rows at the sources. -/
def gatherSrc (x : FVec F S50000x64 .f32) (r : IVec S1000000 32) : FVec F S1000000x64 .f32 :=
  Host.gather gather_S50000x64_S1000000x1_S1000000x64_1_0_n_n_0_1_164 x (srcStart r)

/-- A graph index with a negative one wrapped by the table's 64 rows. -/
def wrapBatch (b : IVec S50000 32) : IVec S50000 32 :=
  select (cmpi .slt b (broadcastInDim S50000 ![] bcast_S_S50000 (constantI S_ 32 0#32)))
    (addi b (broadcastInDim S50000 ![] bcast_S_S50000 (constantI S_ 32 64#32))) b

/-- The wrapped graph indices as a column of start indices. -/
def batchStart (b : IVec S50000 32) : IVec S50000x1 32 :=
  broadcastInDim S50000x1 ![0] bcast_S50000_S50000x1_0 (wrapBatch b)

/-- The graph table's rows at the nodes' graphs. -/
def gatherBatch (u : FVec F S64x64 .f32) (b : IVec S50000 32) : FVec F S50000x64 .f32 :=
  Host.gather gather_S64x64_S50000x1_S50000x64_1_0_n_n_0_1_164 u (batchStart b)

/-- The edge perceptron's input: the gathered source rows beside the edge attributes. -/
def edgeIn (g ea : FVec F S1000000x64 .f32) : FVec F S1000000x128 .f32 :=
  concatenate S1000000x128 1 [⟨S1000000x64, g⟩, ⟨S1000000x64, ea⟩] concatenates_S1000000x64_S1000000x64_S1000000x128_d1

/-- The number of edges arriving at each node, never below one. -/
def degree (d : IVec S1000000 32) : FVec F S50000 .f32 :=
  maximumf (broadcastInDim S50000 ![] bcast_S_S50000 (id (constant S_ .f32 0x3F800000#32)))
    (Host.scatterAdd scatter_S50000_S1000000x1_S1000000_n_0_0_1 (broadcastInDim S50000 ![] bcast_S_S50000 (constant S_ .f32 0x00000000#32))
      (broadcastInDim S1000000x1 ![0] bcast_S1000000_S1000000x1_0 d) (broadcastInDim S1000000 ![] bcast_S_S1000000 (constant S_ .f32 0x3F800000#32)))

/-- The mean of the edge rows arriving at each node (zero where none arrives). -/
def scatterMean (d : IVec S1000000 32) (e : FVec F S1000000x64 .f32) : FVec F S50000x64 .f32 :=
  Host.divf
    (Host.scatterAdd scatter_S50000x64_S1000000x1_S1000000x64_1_0_0_1 (broadcastInDim S50000x64 ![] bcast_S_S50000x64 (constant S_ .f32 0x00000000#32))
      (broadcastInDim S1000000x1 ![0] bcast_S1000000_S1000000x1_0 d) e)
    (broadcastInDim S50000x64 ![0, 1] bcast_S50000x1_S50000x64_0_1 (broadcastInDim S50000x1 ![0] bcast_S50000_S50000x1_0 (degree (F := F) d)))

/-- The whole layer. -/
def layer (x : FVec F S50000x64 .f32) (E : IVec S2x1000000 32) (ea : FVec F S1000000x64 .f32) (u : FVec F S64x64 .f32) (b : IVec S50000 32)
    (W1 : FVec F S128x64 .f32) (b1 : FVec F S64 .f32) (W2 : FVec F S64x64 .f32) (b2 : FVec F S64 .f32)
    (W3 : FVec F S192x64 .f32) (b3 : FVec F S64 .f32) (W4 : FVec F S64x64 .f32) (b4 : FVec F S64 .f32) : FVec F S50000x64 .f32 :=
  nodeMLP (joined x (scatterMean (dstOf E) (edgeMLP (edgeIn (gatherSrc x (srcOf E)) ea) W1 b1 W2 b2)) (gatherBatch u b)) W3 b3 W4 b4

end Cert.Terms

end
-- ==== Proof.TakeTerms.lean ====
/-
  What the kernel's host code computes for a row lookup table[idx]: the wrapped indices are tested against the table's
  range, the rows are gathered, and a row whose index fails the test is replaced by a constant pattern (which reads as
  −∞ over the extended reals). Where every wrapped index is in range the test is all ones and the lookup is the plain
  gather.
-/
import proofs.«423583_j24773371363898_1_alg».proof.Proof.Gen.KernelIdeal

noncomputable section

namespace Cert.KernelIdeal.Take

open Idealize.ShloMosaic Cert.KernelIdeal Cert.KernelIdeal.Gen

variable {F : FTy → Type} [FloatOps F]

/-- A source index with a negative one wrapped by the table's 50000 rows. -/
def wrapSrc (r : IVec S1000000 32) : IVec S1000000 32 :=
  select (cmpi .slt r (broadcastInDim S1000000 ![] bcast_S_S1000000 (constantI S_ 32 0#32)))
    (addi r (broadcastInDim S1000000 ![] bcast_S_S1000000 (constantI S_ 32 50000#32))) r

/-- The wrapped source indices as a column of start indices. -/
def srcStart (r : IVec S1000000 32) : IVec S1000000x1 32 :=
  broadcastInDim S1000000x1 ![0] bcast_S1000000_S1000000x1_0 (wrapSrc r)

/-- Per edge: is the wrapped source index within 0 … 49999? -/
def srcOk (r : IVec S1000000 32) : IVec S1000000 1 :=
  Host.reduce IntOp.andi
    (andi (cmpi .sge (srcStart r) (broadcastInDim S1000000x1 ![] bcast_S_S1000000x1 (constantI S_ 32 0#32)))
      (cmpi .sle (srcStart r) (broadcastInDim S1000000x1 ![0, 1] bcast_S1x1_S1000000x1_0_1 (broadcastInDim S1x1 ![1] bcast_S1_S1x1_1 (constantI S1 32 49999#32)))))
    (constantI S_ 1 1#1) reducesTo_S1000000x1_S1000000_d1 h_S_

/-- The node table's rows at the sources, a row out of range replaced by the constant pattern. -/
def takeSrc (x : FVec F S50000x64 .f32) (r : IVec S1000000 32) : FVec F S1000000x64 .f32 :=
  select (broadcastInDim S1000000x64 ![0] bcast_S1000000_S1000000x64_0 (srcOk r))
    (Host.gather gather_S50000x64_S1000000x1_S1000000x64_1_0_n_n_0_1_164 x (srcStart r))
    (broadcastInDim S1000000x64 ![] bcast_S_S1000000x64 (constant S_ .f32 0x7FC00000#32))

/-- A graph index with a negative one wrapped by the table's 64 rows. -/
def wrapBatch (b : IVec S50000 32) : IVec S50000 32 :=
  select (cmpi .slt b (broadcastInDim S50000 ![] bcast_S_S50000 (constantI S_ 32 0#32)))
    (addi b (broadcastInDim S50000 ![] bcast_S_S50000 (constantI S_ 32 64#32))) b

/-- The wrapped graph indices as a column of start indices. -/
def batchStart (b : IVec S50000 32) : IVec S50000x1 32 :=
  broadcastInDim S50000x1 ![0] bcast_S50000_S50000x1_0 (wrapBatch b)

/-- Per node: is the wrapped graph index within 0 … 63? -/
def batchOk (b : IVec S50000 32) : IVec S50000 1 :=
  Host.reduce IntOp.andi
    (andi (cmpi .sge (batchStart b) (broadcastInDim S50000x1 ![] bcast_S_S50000x1 (constantI S_ 32 0#32)))
      (cmpi .sle (batchStart b) (broadcastInDim S50000x1 ![0, 1] bcast_S1x1_S50000x1_0_1 (broadcastInDim S1x1 ![1] bcast_S1_S1x1_1 (constantI S1 32 63#32)))))
    (constantI S_ 1 1#1) reducesTo_S50000x1_S50000_d1 h_S_

/-- The graph table's rows at the nodes' graphs, a row out of range replaced by the constant pattern. -/
def takeBatch (u : FVec F S64x64 .f32) (b : IVec S50000 32) : FVec F S50000x64 .f32 :=
  select (broadcastInDim S50000x64 ![0] bcast_S50000_S50000x64_0 (batchOk b))
    (Host.gather gather_S64x64_S50000x1_S50000x64_1_0_n_n_0_1_164 u (batchStart b))
    (broadcastInDim S50000x64 ![] bcast_S_S50000x64 (constant S_ .f32 0x7FC00000#32))

end Cert.KernelIdeal.Take

end
-- ==== Proof.Stretches.lean ====
/-
  The host operations of the idealized kernel's program, stretch by stretch: what each stretch leaves in the buffers the
  two regions and the later stretches read, as a function of the contents U it starts from. A stretch that does not write
  a buffer leaves it as it was.

  Before the edge region: the sources and destinations are cut out of the edge list; the node table is looked up at the
  sources (with the range guard: that stretch is read in its own module); the looked-up rows are laid beside the edge attributes.
  Between the regions: the edge region's output is summed into its destination rows and divided by the clipped degree;
  the graph table is looked up at the nodes' graphs (with the range guard).
-/
import proofs.«423583_j24773371363898_1_alg».proof.Proof.Gen.KernelIdeal.Frame
import proofs.«423583_j24773371363898_1_alg».proof.Proof.HostTerms
import proofs.«423583_j24773371363898_1_alg».proof.Proof.TakeTerms
import Idealize.ShloMosaic.Lib.StableHlo.Run

set_option maxRecDepth 16384
set_option maxHeartbeats 1600000

noncomputable section

namespace Cert.KernelIdeal.Stretch

open Cert.KernelIdeal Cert.KernelIdeal.Gen
open Idealize.ShloMosaic Idealize.ShloMosaic.TcCoe Idealize.SL.Sem Idealize.ShloMosaic.StableHlo

variable {F : FTy → Type} [FloatOps F]

/-! ## What the stretches write -/

/-- The first stretch cuts the sources out of the edge list. -/
theorem src_hostOps0 (U : Valuation τ sig (Elt F)) :
    (StableHlo.after hostOps0 U (Proc.devRef .tc main_v1) : IVec S1000000 32) = Cert.Terms.srcOf (U (Proc.devRef .tc main_arg1)) := by
  simp only [hostOps0]
  after_results <;> rfl

/-- … and the destinations. -/
theorem dst_hostOps0 (U : Valuation τ sig (Elt F)) :
    (StableHlo.after hostOps0 U (Proc.devRef .tc main_v3) : IVec S1000000 32) = Cert.Terms.dstOf (U (Proc.devRef .tc main_arg1)) := by
  simp only [hostOps0]
  after_results <;> rfl

/-- The third stretch lays the looked-up rows beside the edge attributes. -/
theorem edgeIn_hostOps0_2 (U : Valuation τ sig (Elt F)) :
    (StableHlo.after hostOps0_2 U (Proc.devRef .tc main_v5) : FVec F S1000000x128 .f32)
      = Cert.Terms.edgeIn (U (Proc.devRef .tc main_v4)) (U (Proc.devRef .tc main_arg2)) := by
  simp only [hostOps0_2]
  after_results <;> rfl

/-- After the edge region: the sum of the edge rows into their destination rows. -/
theorem sums_hostOps1 (U : Valuation τ sig (Elt F)) :
    (StableHlo.after hostOps1 U (Proc.devRef .tc main_v9) : FVec F S50000x64 .f32)
      = Host.scatterAdd scatter_S50000x64_S1000000x1_S1000000x64_1_0_0_1 (broadcastInDim S50000x64 ![] bcast_S_S50000x64 (constant S_ .f32 0x00000000#32))
          (broadcastInDim S1000000x1 ![0] bcast_S1000000_S1000000x1_0 (U (Proc.devRef .tc main_v3))) (U (Proc.devRef .tc main_v6)) := by
  simp only [hostOps1]
  after_results <;> rfl

/-- … the number of edges arriving at each node. -/
theorem counts_hostOps1 (U : Valuation τ sig (Elt F)) :
    (StableHlo.after hostOps1 U (Proc.devRef .tc main_v13) : FVec F S50000 .f32)
      = Host.scatterAdd scatter_S50000_S1000000x1_S1000000_n_0_0_1 (broadcastInDim S50000 ![] bcast_S_S50000 (constant S_ .f32 0x00000000#32))
          (broadcastInDim S1000000x1 ![0] bcast_S1000000_S1000000x1_0 (U (Proc.devRef .tc main_v3))) (broadcastInDim S1000000 ![] bcast_S_S1000000 (constant S_ .f32 0x3F800000#32)) := by
  simp only [hostOps1]
  after_results <;> rfl

/-- … and the constant one the clip compares with. -/
theorem one_hostOps1 (U : Valuation τ sig (Elt F)) :
    (StableHlo.after hostOps1 U (Proc.devRef .tc main_cst_2) : FVec F S_ .f32) = constant S_ .f32 0x3F800000#32 := by
  simp only [hostOps1]
  after_results <;> rfl

/-- The clip: the degree, never below one. -/
theorem clip_hostOps1_1 (U : Valuation τ sig (Elt F)) :
    (StableHlo.after hostOps1_1 U (Proc.devRef .tc main_v14) : FVec F S50000 .f32)
      = maximumf (broadcastInDim S50000 ![] bcast_S_S50000 (id (U (Proc.devRef .tc main_cst_2) : FVec F S_ .f32))) (U (Proc.devRef .tc main_v13)) := by
  simp only [hostOps1_1]
  after_results <;> rfl

/-- The mean: the sums divided by the degree laid along each row. -/
theorem mean_hostOps1_2 (U : Valuation τ sig (Elt F)) :
    (StableHlo.after hostOps1_2 U (Proc.devRef .tc main_v17) : FVec F S50000x64 .f32)
      = Host.divf (U (Proc.devRef .tc main_v9))
          (broadcastInDim S50000x64 ![0, 1] bcast_S50000x1_S50000x64_0_1 (broadcastInDim S50000x1 ![0] bcast_S50000_S50000x1_0 (U (Proc.devRef .tc main_v14)))) := by
  simp only [hostOps1_2]
  after_results <;> rfl

/-! ## What the stretches leave alone -/

theorem keep_hostOps0_main_arg0 (U : Valuation τ sig (Elt F)) :
    StableHlo.after hostOps0 U (Proc.devRef .tc main_arg0) = U (Proc.devRef .tc main_arg0) := by
  simp only [hostOps0]
  after_results

theorem keep_hostOps0_main_arg2 (U : Valuation τ sig (Elt F)) :
    StableHlo.after hostOps0 U (Proc.devRef .tc main_arg2) = U (Proc.devRef .tc main_arg2) := by
  simp only [hostOps0]
  after_results

theorem keep_hostOps0_main_arg5 (U : Valuation τ sig (Elt F)) :
    StableHlo.after hostOps0 U (Proc.devRef .tc main_arg5) = U (Proc.devRef .tc main_arg5) := by
  simp only [hostOps0]
  after_results

theorem keep_hostOps0_main_arg6 (U : Valuation τ sig (Elt F)) :
    StableHlo.after hostOps0 U (Proc.devRef .tc main_arg6) = U (Proc.devRef .tc main_arg6) := by
  simp only [hostOps0]
  after_results

theorem keep_hostOps0_main_arg7 (U : Valuation τ sig (Elt F)) :
    StableHlo.after hostOps0 U (Proc.devRef .tc main_arg7) = U (Proc.devRef .tc main_arg7) := by
  simp only [hostOps0]
  after_results

theorem keep_hostOps0_main_arg8 (U : Valuation τ sig (Elt F)) :
    StableHlo.after hostOps0 U (Proc.devRef .tc main_arg8) = U (Proc.devRef .tc main_arg8) := by
  simp only [hostOps0]
  after_results

theorem keep_hostOps0_1_main_arg2 (U : Valuation τ sig (Elt F)) :
    StableHlo.after hostOps0_1 U (Proc.devRef .tc main_arg2) = U (Proc.devRef .tc main_arg2) := by
  simp only [hostOps0_1]
  after_results

theorem keep_hostOps0_1_main_arg5 (U : Valuation τ sig (Elt F)) :
    StableHlo.after hostOps0_1 U (Proc.devRef .tc main_arg5) = U (Proc.devRef .tc main_arg5) := by
  simp only [hostOps0_1]
  after_results

theorem keep_hostOps0_1_main_arg6 (U : Valuation τ sig (Elt F)) :
    StableHlo.after hostOps0_1 U (Proc.devRef .tc main_arg6) = U (Proc.devRef .tc main_arg6) := by
  simp only [hostOps0_1]
  after_results

theorem keep_hostOps0_1_main_arg7 (U : Valuation τ sig (Elt F)) :
    StableHlo.after hostOps0_1 U (Proc.devRef .tc main_arg7) = U (Proc.devRef .tc main_arg7) := by
  simp only [hostOps0_1]
  after_results

theorem keep_hostOps0_1_main_arg8 (U : Valuation τ sig (Elt F)) :
    StableHlo.after hostOps0_1 U (Proc.devRef .tc main_arg8) = U (Proc.devRef .tc main_arg8) := by
  simp only [hostOps0_1]
  after_results

theorem keep_hostOps0_1_main_v3 (U : Valuation τ sig (Elt F)) :
    StableHlo.after hostOps0_1 U (Proc.devRef .tc main_v3) = U (Proc.devRef .tc main_v3) := by
  simp only [hostOps0_1]
  after_results

theorem keep_hostOps0_2_main_arg5 (U : Valuation τ sig (Elt F)) :
    StableHlo.after hostOps0_2 U (Proc.devRef .tc main_arg5) = U (Proc.devRef .tc main_arg5) := by
  simp only [hostOps0_2]
  after_results

theorem keep_hostOps0_2_main_arg6 (U : Valuation τ sig (Elt F)) :
    StableHlo.after hostOps0_2 U (Proc.devRef .tc main_arg6) = U (Proc.devRef .tc main_arg6) := by
  simp only [hostOps0_2]
  after_results

theorem keep_hostOps0_2_main_arg7 (U : Valuation τ sig (Elt F)) :
    StableHlo.after hostOps0_2 U (Proc.devRef .tc main_arg7) = U (Proc.devRef .tc main_arg7) := by
  simp only [hostOps0_2]
  after_results

theorem keep_hostOps0_2_main_arg8 (U : Valuation τ sig (Elt F)) :
    StableHlo.after hostOps0_2 U (Proc.devRef .tc main_arg8) = U (Proc.devRef .tc main_arg8) := by
  simp only [hostOps0_2]
  after_results

theorem keep_hostOps0_2_main_v3 (U : Valuation τ sig (Elt F)) :
    StableHlo.after hostOps0_2 U (Proc.devRef .tc main_v3) = U (Proc.devRef .tc main_v3) := by
  simp only [hostOps0_2]
  after_results

theorem keep_hostOps1_1_main_v9 (U : Valuation τ sig (Elt F)) :
    StableHlo.after hostOps1_1 U (Proc.devRef .tc main_v9) = U (Proc.devRef .tc main_v9) := by
  simp only [hostOps1_1]
  after_results

theorem keep_hostOps1_3_main_v17 (U : Valuation τ sig (Elt F)) :
    StableHlo.after hostOps1_3 U (Proc.devRef .tc main_v17) = U (Proc.devRef .tc main_v17) := by
  simp only [hostOps1_3]
  after_results

theorem keep_hostOps1_3_main_arg3 (U : Valuation τ sig (Elt F)) :
    StableHlo.after hostOps1_3 U (Proc.devRef .tc main_arg3) = U (Proc.devRef .tc main_arg3) := by
  simp only [hostOps1_3]
  after_results

theorem keep_hostOps1_3_main_arg4 (U : Valuation τ sig (Elt F)) :
    StableHlo.after hostOps1_3 U (Proc.devRef .tc main_arg4) = U (Proc.devRef .tc main_arg4) := by
  simp only [hostOps1_3]
  after_results

end Cert.KernelIdeal.Stretch

end
-- ==== Proof.TakeStretch.lean ====
/-
  The two stretches of host operations that look a table up at a vector of indices with a range guard, each read as ONE
  term of the table and the indices: the guarded lookup of proof/Proof/TakeTerms.lean. Each stretch is read in three
  consecutive parts (the wrapped start indices; the range test; the gather and the choice), the later parts over the
  contents the earlier ones leave.
-/
import proofs.«423583_j24773371363898_1_alg».proof.Proof.Gen.KernelIdeal.Frame
import proofs.«423583_j24773371363898_1_alg».proof.Proof.TakeTerms
import Idealize.ShloMosaic.Lib.StableHlo.Run

set_option maxRecDepth 16384
set_option maxHeartbeats 1600000

noncomputable section

namespace Cert.KernelIdeal.Stretch

open Cert.KernelIdeal Cert.KernelIdeal.Gen
open Idealize.ShloMosaic Idealize.ShloMosaic.TcCoe Idealize.SL.Sem Idealize.ShloMosaic.StableHlo

variable {F : FTy → Type} [FloatOps F]

/-- Operations run one list after another: the contents after the joined list are those after the second list from the
    contents after the first. -/
theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => simp only [List.cons_append, StableHlo.after_cons, ih]

/-! ## The node table at the sources -/

/-- The stretch's first operations: the wrapped indices, laid as a column of start indices. -/
abbrev srcA : List (HloOp τ sig (Elt F)) :=
  [ StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S1000000, .i32⟩) (broadcastInDim S1000000 ![] bcast_S_S1000000),
    StableHlo.TRef.binary (.of main_v1 : StableHlo.TRef sig ⟨S1000000, .i32⟩) (.of main_call0_v0 : StableHlo.TRef sig ⟨S1000000, .i32⟩) (.of main_call0_v1 : StableHlo.TRef sig ⟨S1000000, .i1⟩) (cmpi .slt),
    StableHlo.TRef.nullary (.of main_call0_c_0 : StableHlo.TRef sig ⟨S_, .i32⟩) (constantI S_ 32 50000#32),
    StableHlo.TRef.unary (.of main_call0_c_0 : StableHlo.TRef sig ⟨S_, .i32⟩) (.of main_call0_v2 : StableHlo.TRef sig ⟨S1000000, .i32⟩) (broadcastInDim S1000000 ![] bcast_S_S1000000),
    StableHlo.TRef.binary (.of main_v1 : StableHlo.TRef sig ⟨S1000000, .i32⟩) (.of main_call0_v2 : StableHlo.TRef sig ⟨S1000000, .i32⟩) (.of main_call0_v3 : StableHlo.TRef sig ⟨S1000000, .i32⟩) addi,
    StableHlo.TRef.ternary (.of main_call0_v1 : StableHlo.TRef sig ⟨S1000000, .i1⟩) (.of main_call0_v3 : StableHlo.TRef sig ⟨S1000000, .i32⟩) (.of main_v1 : StableHlo.TRef sig ⟨S1000000, .i32⟩) (.of main_call0_v4 : StableHlo.TRef sig ⟨S1000000, .i32⟩) select,
    StableHlo.TRef.unary main_call0_call0.v0 (.of main_call0_v5 : StableHlo.TRef sig ⟨S1000000x1, .i32⟩) (broadcastInDim S1000000x1 ![0] bcast_S1000000_S1000000x1_0) ]
/-- Its middle operations: the range test of the wrapped indices. -/
abbrev srcB : List (HloOp τ sig (Elt F)) :=
  [ StableHlo.TRef.nullary (.of main_call0_c_1 : StableHlo.TRef sig ⟨S1, .i32⟩) (constantI S1 32 49999#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S1000000x1, .i32⟩) (broadcastInDim S1000000x1 ![] bcast_S_S1000000x1),
    StableHlo.TRef.binary (.of main_call0_v5 : StableHlo.TRef sig ⟨S1000000x1, .i32⟩) (.of main_call0_v6 : StableHlo.TRef sig ⟨S1000000x1, .i32⟩) (.of main_call0_v7 : StableHlo.TRef sig ⟨S1000000x1, .i1⟩) (cmpi .sge),
    StableHlo.TRef.unary (.of main_call0_c_1 : StableHlo.TRef sig ⟨S1, .i32⟩) (.of main_call0_v8 : StableHlo.TRef sig ⟨S1x1, .i32⟩) (broadcastInDim S1x1 ![1] bcast_S1_S1x1_1),
    StableHlo.TRef.unary (.of main_call0_v8 : StableHlo.TRef sig ⟨S1x1, .i32⟩) (.of main_call0_v9 : StableHlo.TRef sig ⟨S1000000x1, .i32⟩) (broadcastInDim S1000000x1 ![0, 1] bcast_S1x1_S1000000x1_0_1),
    StableHlo.TRef.binary (.of main_call0_v5 : StableHlo.TRef sig ⟨S1000000x1, .i32⟩) (.of main_call0_v9 : StableHlo.TRef sig ⟨S1000000x1, .i32⟩) (.of main_call0_v10 : StableHlo.TRef sig ⟨S1000000x1, .i1⟩) (cmpi .sle),
    StableHlo.TRef.binary (.of main_call0_v7 : StableHlo.TRef sig ⟨S1000000x1, .i1⟩) (.of main_call0_v10 : StableHlo.TRef sig ⟨S1000000x1, .i1⟩) (.of main_call0_v11 : StableHlo.TRef sig ⟨S1000000x1, .i1⟩) andi,
    StableHlo.TRef.nullary (.of main_call0_c_3 : StableHlo.TRef sig ⟨S_, .i1⟩) (constantI S_ 1 1#1),
    StableHlo.TRef.binary (.of main_call0_v11 : StableHlo.TRef sig ⟨S1000000x1, .i1⟩) (.of main_call0_c_3 : StableHlo.TRef sig ⟨S_, .i1⟩) (.of main_call0_v12 : StableHlo.TRef sig ⟨S1000000, .i1⟩) (fun x v => Host.reduce IntOp.andi x v reducesTo_S1000000x1_S1000000_d1 h_S_) ]
/-- Its last operations: the gather, and the choice between the gathered row and the constant pattern. -/
abbrev srcC : List (HloOp τ sig (Elt F)) :=
  [ StableHlo.TRef.binary (.of main_arg0 : StableHlo.TRef sig ⟨S50000x64, .f32⟩) (.of main_call0_v5 : StableHlo.TRef sig ⟨S1000000x1, .i32⟩) (.of main_call0_v13 : StableHlo.TRef sig ⟨S1000000x64, .f32⟩) (fun x i => Host.gather gather_S50000x64_S1000000x1_S1000000x64_1_0_n_n_0_1_164 x i),
    StableHlo.TRef.unary (.of main_call0_v12 : StableHlo.TRef sig ⟨S1000000, .i1⟩) (.of main_call0_v14 : StableHlo.TRef sig ⟨S1000000x64, .i1⟩) (broadcastInDim S1000000x64 ![0] bcast_S1000000_S1000000x64_0),
    StableHlo.TRef.nullary (.of main_call0_cst : StableHlo.TRef sig ⟨S_, .f32⟩) (constant S_ .f32 0x7FC00000#32),
    StableHlo.TRef.unary (.of main_call0_cst : StableHlo.TRef sig ⟨S_, .f32⟩) (.of main_call0_v15 : StableHlo.TRef sig ⟨S1000000x64, .f32⟩) (broadcastInDim S1000000x64 ![] bcast_S_S1000000x64),
    StableHlo.TRef.ternary (.of main_call0_v14 : StableHlo.TRef sig ⟨S1000000x64, .i1⟩) (.of main_call0_v13 : StableHlo.TRef sig ⟨S1000000x64, .f32⟩) (.of main_call0_v15 : StableHlo.TRef sig ⟨S1000000x64, .f32⟩) (.of main_v4 : StableHlo.TRef sig ⟨S1000000x64, .f32⟩) select ]

theorem src_split : (hostOps0_1 : List (HloOp τ sig (Elt F))) = srcA ++ (srcB ++ srcC) := rfl

/-- The range test as a function of the column of start indices. -/
abbrev srcOk (s : IVec S1000000x1 32) : IVec S1000000 1 :=
  Host.reduce IntOp.andi
    (andi (cmpi .sge s (broadcastInDim S1000000x1 ![] bcast_S_S1000000x1 (constantI S_ 32 0#32)))
      (cmpi .sle s (broadcastInDim S1000000x1 ![0, 1] bcast_S1x1_S1000000x1_0_1 (broadcastInDim S1x1 ![1] bcast_S1_S1x1_1 (constantI S1 32 49999#32)))))
    (constantI S_ 1 1#1) reducesTo_S1000000x1_S1000000_d1 h_S_

/-- The choice, as a function of the test's bits, the table and the column of start indices. -/
abbrev srcPick (k : IVec S1000000 1) (x : FVec F S50000x64 .f32) (s : IVec S1000000x1 32) : FVec F S1000000x64 .f32 :=
  select (broadcastInDim S1000000x64 ![0] bcast_S1000000_S1000000x64_0 k) (Host.gather gather_S50000x64_S1000000x1_S1000000x64_1_0_n_n_0_1_164 x s)
    (broadcastInDim S1000000x64 ![] bcast_S_S1000000x64 (constant S_ .f32 0x7FC00000#32))

theorem src_start (U : Valuation τ sig (Elt F)) :
    (StableHlo.after srcA U (Proc.devRef .tc main_call0_v5) : IVec S1000000x1 32) = Take.srcStart (U (Proc.devRef .tc main_v1)) := by
  simp only [srcA]
  after_results <;> rfl

theorem src_ok (U : Valuation τ sig (Elt F)) :
    (StableHlo.after srcB U (Proc.devRef .tc main_call0_v12) : IVec S1000000 1) = srcOk (U (Proc.devRef .tc main_call0_v5)) := by
  simp only [srcB]
  after_results
  congr 1

theorem src_pick (U : Valuation τ sig (Elt F)) :
    (StableHlo.after srcC U (Proc.devRef .tc main_v4) : FVec F S1000000x64 .f32)
      = srcPick (F := F) (U (Proc.devRef .tc main_call0_v12)) (U (Proc.devRef .tc main_arg0)) (U (Proc.devRef .tc main_call0_v5)) := by
  simp only [srcC]
  after_results <;> rfl

theorem keep_srcA_main_arg0 (U : Valuation τ sig (Elt F)) :
    StableHlo.after srcA U (Proc.devRef .tc main_arg0) = U (Proc.devRef .tc main_arg0) := by
  simp only [srcA]
  after_results

theorem keep_srcB_main_arg0 (U : Valuation τ sig (Elt F)) :
    StableHlo.after srcB U (Proc.devRef .tc main_arg0) = U (Proc.devRef .tc main_arg0) := by
  simp only [srcB]
  after_results

theorem keep_srcB_main_call0_v5 (U : Valuation τ sig (Elt F)) :
    StableHlo.after srcB U (Proc.devRef .tc main_call0_v5) = U (Proc.devRef .tc main_call0_v5) := by
  simp only [srcB]
  after_results

/-- The whole stretch: the guarded lookup of the node table at the sources. -/
theorem take_hostOps0_1 (U : Valuation τ sig (Elt F)) :
    (StableHlo.after hostOps0_1 U (Proc.devRef .tc main_v4) : FVec F S1000000x64 .f32)
      = Take.takeSrc (F := F) (U (Proc.devRef .tc main_arg0)) (U (Proc.devRef .tc main_v1)) := by
  rw [src_split, after_append, after_append]
  have hs : (StableHlo.after srcB (StableHlo.after srcA U) (Proc.devRef .tc main_call0_v5) : IVec S1000000x1 32)
      = Take.srcStart (U (Proc.devRef .tc main_v1)) :=
    (keep_srcB_main_call0_v5 (StableHlo.after srcA U)).trans (src_start U)
  have hk : (StableHlo.after srcB (StableHlo.after srcA U) (Proc.devRef .tc main_call0_v12) : IVec S1000000 1)
      = srcOk (Take.srcStart (U (Proc.devRef .tc main_v1))) :=
    (src_ok (StableHlo.after srcA U)).trans (congrArg srcOk (src_start U))
  have hx : (StableHlo.after srcB (StableHlo.after srcA U) (Proc.devRef .tc main_arg0) : FVec F S50000x64 .f32)
      = U (Proc.devRef .tc main_arg0) :=
    (keep_srcB_main_arg0 (StableHlo.after srcA U)).trans (keep_srcA_main_arg0 U)
  exact (src_pick (StableHlo.after srcB (StableHlo.after srcA U))).trans
    (congr (congr (congrArg (srcPick (F := F)) hk) hx) hs)

/-! ## The graph table at the nodes' graphs -/

/-- The stretch's first operations: the wrapped indices, laid as a column of start indices. -/
abbrev batA : List (HloOp τ sig (Elt F)) :=
  [ StableHlo.TRef.nullary (.of main_call2_c : StableHlo.TRef sig ⟨S_, .i32⟩) (constantI S_ 32 0#32),
    StableHlo.TRef.unary (.of main_call2_c : StableHlo.TRef sig ⟨S_, .i32⟩) (.of main_call2_v0 : StableHlo.TRef sig ⟨S50000, .i32⟩) (broadcastInDim S50000 ![] bcast_S_S50000),
    StableHlo.TRef.binary (.of main_arg4 : StableHlo.TRef sig ⟨S50000, .i32⟩) (.of main_call2_v0 : StableHlo.TRef sig ⟨S50000, .i32⟩) (.of main_call2_v1 : StableHlo.TRef sig ⟨S50000, .i1⟩) (cmpi .slt),
    StableHlo.TRef.nullary (.of main_call2_c_0 : StableHlo.TRef sig ⟨S_, .i32⟩) (constantI S_ 32 64#32),
    StableHlo.TRef.unary (.of main_call2_c_0 : StableHlo.TRef sig ⟨S_, .i32⟩) (.of main_call2_v2 : StableHlo.TRef sig ⟨S50000, .i32⟩) (broadcastInDim S50000 ![] bcast_S_S50000),
    StableHlo.TRef.binary (.of main_arg4 : StableHlo.TRef sig ⟨S50000, .i32⟩) (.of main_call2_v2 : StableHlo.TRef sig ⟨S50000, .i32⟩) (.of main_call2_v3 : StableHlo.TRef sig ⟨S50000, .i32⟩) addi,
    StableHlo.TRef.ternary (.of main_call2_v1 : StableHlo.TRef sig ⟨S50000, .i1⟩) (.of main_call2_v3 : StableHlo.TRef sig ⟨S50000, .i32⟩) (.of main_arg4 : StableHlo.TRef sig ⟨S50000, .i32⟩) (.of main_call2_v4 : StableHlo.TRef sig ⟨S50000, .i32⟩) select,
    StableHlo.TRef.unary main_call2_call0.v0 (.of main_call2_v5 : StableHlo.TRef sig ⟨S50000x1, .i32⟩) (broadcastInDim S50000x1 ![0] bcast_S50000_S50000x1_0) ]
/-- Its middle operations: the range test of the wrapped indices. -/
abbrev batB : List (HloOp τ sig (Elt F)) :=
  [ StableHlo.TRef.nullary (.of main_call2_c_1 : StableHlo.TRef sig ⟨S1, .i32⟩) (constantI S1 32 63#32),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v6 : StableHlo.TRef sig ⟨S50000x1, .i32⟩) (broadcastInDim S50000x1 ![] bcast_S_S50000x1),
    StableHlo.TRef.binary (.of main_call2_v5 : StableHlo.TRef sig ⟨S50000x1, .i32⟩) (.of main_call2_v6 : StableHlo.TRef sig ⟨S50000x1, .i32⟩) (.of main_call2_v7 : StableHlo.TRef sig ⟨S50000x1, .i1⟩) (cmpi .sge),
    StableHlo.TRef.unary (.of main_call2_c_1 : StableHlo.TRef sig ⟨S1, .i32⟩) (.of main_call2_v8 : StableHlo.TRef sig ⟨S1x1, .i32⟩) (broadcastInDim S1x1 ![1] bcast_S1_S1x1_1),
    StableHlo.TRef.unary (.of main_call2_v8 : StableHlo.TRef sig ⟨S1x1, .i32⟩) (.of main_call2_v9 : StableHlo.TRef sig ⟨S50000x1, .i32⟩) (broadcastInDim S50000x1 ![0, 1] bcast_S1x1_S50000x1_0_1),
    StableHlo.TRef.binary (.of main_call2_v5 : StableHlo.TRef sig ⟨S50000x1, .i32⟩) (.of main_call2_v9 : StableHlo.TRef sig ⟨S50000x1, .i32⟩) (.of main_call2_v10 : StableHlo.TRef sig ⟨S50000x1, .i1⟩) (cmpi .sle),
    StableHlo.TRef.binary (.of main_call2_v7 : StableHlo.TRef sig ⟨S50000x1, .i1⟩) (.of main_call2_v10 : StableHlo.TRef sig ⟨S50000x1, .i1⟩) (.of main_call2_v11 : StableHlo.TRef sig ⟨S50000x1, .i1⟩) andi,
    StableHlo.TRef.nullary (.of main_call2_c_3 : StableHlo.TRef sig ⟨S_, .i1⟩) (constantI S_ 1 1#1),
    StableHlo.TRef.binary (.of main_call2_v11 : StableHlo.TRef sig ⟨S50000x1, .i1⟩) (.of main_call2_c_3 : StableHlo.TRef sig ⟨S_, .i1⟩) (.of main_call2_v12 : StableHlo.TRef sig ⟨S50000, .i1⟩) (fun x v => Host.reduce IntOp.andi x v reducesTo_S50000x1_S50000_d1 h_S_) ]
/-- Its last operations: the gather, and the choice between the gathered row and the constant pattern. -/
abbrev batC : List (HloOp τ sig (Elt F)) :=
  [ StableHlo.TRef.binary (.of main_arg3 : StableHlo.TRef sig ⟨S64x64, .f32⟩) (.of main_call2_v5 : StableHlo.TRef sig ⟨S50000x1, .i32⟩) (.of main_call2_v13 : StableHlo.TRef sig ⟨S50000x64, .f32⟩) (fun x i => Host.gather gather_S64x64_S50000x1_S50000x64_1_0_n_n_0_1_164 x i),
    StableHlo.TRef.unary (.of main_call2_v12 : StableHlo.TRef sig ⟨S50000, .i1⟩) (.of main_call2_v14 : StableHlo.TRef sig ⟨S50000x64, .i1⟩) (broadcastInDim S50000x64 ![0] bcast_S50000_S50000x64_0),
    StableHlo.TRef.nullary (.of main_call2_cst : StableHlo.TRef sig ⟨S_, .f32⟩) (constant S_ .f32 0x7FC00000#32),
    StableHlo.TRef.unary (.of main_call2_cst : StableHlo.TRef sig ⟨S_, .f32⟩) (.of main_call2_v15 : StableHlo.TRef sig ⟨S50000x64, .f32⟩) (broadcastInDim S50000x64 ![] bcast_S_S50000x64),
    StableHlo.TRef.ternary (.of main_call2_v14 : StableHlo.TRef sig ⟨S50000x64, .i1⟩) (.of main_call2_v13 : StableHlo.TRef sig ⟨S50000x64, .f32⟩) (.of main_call2_v15 : StableHlo.TRef sig ⟨S50000x64, .f32⟩) (.of main_v18 : StableHlo.TRef sig ⟨S50000x64, .f32⟩) select ]

theorem bat_split : (hostOps1_3 : List (HloOp τ sig (Elt F))) = batA ++ (batB ++ batC) := rfl

/-- The range test as a function of the column of start indices. -/
abbrev batOk (s : IVec S50000x1 32) : IVec S50000 1 :=
  Host.reduce IntOp.andi
    (andi (cmpi .sge s (broadcastInDim S50000x1 ![] bcast_S_S50000x1 (constantI S_ 32 0#32)))
      (cmpi .sle s (broadcastInDim S50000x1 ![0, 1] bcast_S1x1_S50000x1_0_1 (broadcastInDim S1x1 ![1] bcast_S1_S1x1_1 (constantI S1 32 63#32)))))
    (constantI S_ 1 1#1) reducesTo_S50000x1_S50000_d1 h_S_

/-- The choice, as a function of the test's bits, the table and the column of start indices. -/
abbrev batPick (k : IVec S50000 1) (x : FVec F S64x64 .f32) (s : IVec S50000x1 32) : FVec F S50000x64 .f32 :=
  select (broadcastInDim S50000x64 ![0] bcast_S50000_S50000x64_0 k) (Host.gather gather_S64x64_S50000x1_S50000x64_1_0_n_n_0_1_164 x s)
    (broadcastInDim S50000x64 ![] bcast_S_S50000x64 (constant S_ .f32 0x7FC00000#32))

theorem bat_start (U : Valuation τ sig (Elt F)) :
    (StableHlo.after batA U (Proc.devRef .tc main_call2_v5) : IVec S50000x1 32) = Take.batchStart (U (Proc.devRef .tc main_arg4)) := by
  simp only [batA]
  after_results <;> rfl

theorem bat_ok (U : Valuation τ sig (Elt F)) :
    (StableHlo.after batB U (Proc.devRef .tc main_call2_v12) : IVec S50000 1) = batOk (U (Proc.devRef .tc main_call2_v5)) := by
  simp only [batB]
  after_results
  congr 1

theorem bat_pick (U : Valuation τ sig (Elt F)) :
    (StableHlo.after batC U (Proc.devRef .tc main_v18) : FVec F S50000x64 .f32)
      = batPick (F := F) (U (Proc.devRef .tc main_call2_v12)) (U (Proc.devRef .tc main_arg3)) (U (Proc.devRef .tc main_call2_v5)) := by
  simp only [batC]
  after_results <;> rfl

theorem keep_batA_main_arg3 (U : Valuation τ sig (Elt F)) :
    StableHlo.after batA U (Proc.devRef .tc main_arg3) = U (Proc.devRef .tc main_arg3) := by
  simp only [batA]
  after_results

theorem keep_batB_main_arg3 (U : Valuation τ sig (Elt F)) :
    StableHlo.after batB U (Proc.devRef .tc main_arg3) = U (Proc.devRef .tc main_arg3) := by
  simp only [batB]
  after_results

theorem keep_batB_main_call2_v5 (U : Valuation τ sig (Elt F)) :
    StableHlo.after batB U (Proc.devRef .tc main_call2_v5) = U (Proc.devRef .tc main_call2_v5) := by
  simp only [batB]
  after_results

/-- The whole stretch: the guarded lookup of the graph table at the nodes' graphs. -/
theorem take_hostOps1_3 (U : Valuation τ sig (Elt F)) :
    (StableHlo.after hostOps1_3 U (Proc.devRef .tc main_v18) : FVec F S50000x64 .f32)
      = Take.takeBatch (F := F) (U (Proc.devRef .tc main_arg3)) (U (Proc.devRef .tc main_arg4)) := by
  rw [bat_split, after_append, after_append]
  have hs : (StableHlo.after batB (StableHlo.after batA U) (Proc.devRef .tc main_call2_v5) : IVec S50000x1 32)
      = Take.batchStart (U (Proc.devRef .tc main_arg4)) :=
    (keep_batB_main_call2_v5 (StableHlo.after batA U)).trans (bat_start U)
  have hk : (StableHlo.after batB (StableHlo.after batA U) (Proc.devRef .tc main_call2_v12) : IVec S50000 1)
      = batOk (Take.batchStart (U (Proc.devRef .tc main_arg4))) :=
    (bat_ok (StableHlo.after batA U)).trans (congrArg batOk (bat_start U))
  have hx : (StableHlo.after batB (StableHlo.after batA U) (Proc.devRef .tc main_arg3) : FVec F S64x64 .f32)
      = U (Proc.devRef .tc main_arg3) :=
    (keep_batB_main_arg3 (StableHlo.after batA U)).trans (keep_batA_main_arg3 U)
  exact (bat_pick (StableHlo.after batB (StableHlo.after batA U))).trans
    (congr (congr (congrArg (batPick (F := F)) hk) hx) hs)

end Cert.KernelIdeal.Stretch

end
-- ==== Proof.EdgeRegionRow.lean ====
/-
  One row of the edge perceptron, as a function of the row's 128 entries, the two weight tables and the two biases:

    hiddenRow e W1 b1 k = max(Σ_{j<128} e j · W1[j,k] + b1[k], 0)                      (k < 64),
    rowMLP e W1 b1 W2 b2 q = Σ_{k<64} hiddenRow e W1 b1 k · W2[k,q] + b2[q]            (q < 64).

  Row r of max(E · W1 + b1, 0) · W2 + b2 is rowMLP of row r of E: the perceptron acts on each row by itself. Both the
  kernel's block computation and the host's whole-array term are read, index by index, to this one function.
  The zero of the maximum is kept as the word both programs print.
-/
import Idealize.ShloMosaic.Lib.ValueIdx
import Idealize.ShloMosaic.PureOps.Ideal.Laws

noncomputable section

namespace Cert.EdgeRegion

open Idealize.ShloMosaic Idealize.ShloMosaic.ValueIdx

/-- The hidden layer of one row: entry `k` of max(e · W1 + b1, 0). -/
def hiddenRow (e : Fin 128 → EReal) (W1 : (⟨2, ![128, 64]⟩ : Shape).Idx → EReal) (b1 : (⟨1, ![64]⟩ : Shape).Idx → EReal)
    (k : Fin 64) : EReal :=
  max ((∑ j : Fin 128, e j * W1 (ix2 j k)) + b1 (ix1 k)) (Ideal.ofBits .f32 0x00000000#32)

/-- The perceptron of one row: entry `q` of max(e · W1 + b1, 0) · W2 + b2. -/
def rowMLP (e : Fin 128 → EReal) (W1 : (⟨2, ![128, 64]⟩ : Shape).Idx → EReal) (b1 : (⟨1, ![64]⟩ : Shape).Idx → EReal)
    (W2 : (⟨2, ![64, 64]⟩ : Shape).Idx → EReal) (b2 : (⟨1, ![64]⟩ : Shape).Idx → EReal) (q : Fin 64) : EReal :=
  (∑ k : Fin 64, hiddenRow e W1 b1 k * W2 (ix2 k q)) + b2 (ix1 q)

end Cert.EdgeRegion

end
-- ==== Proof.EdgeRegionKernelRow.lean ====
/-
  The edge kernel's one stored value read at an index of its block. At the ideal values rounding to bf16 and the cast of
  a block to its own shape change nothing, each of the two matrix products into a zero accumulator is, at an index, the
  sum over the contracted axis of the products of the operands' entries, a bias of 64 entries cast to one row and
  broadcast down the rows is the bias entry of the column, and the maximum against a splat of zero is the maximum
  against zero. So entry (p, q) of the stored block is the row perceptron of row p of the loaded block of E.
-/
import proofs.«423583_j24773371363898_1_alg».proof.Proof.Gen.KernelIdeal.Skeleton
import proofs.«423583_j24773371363898_1_alg».proof.Proof.EdgeRegionRow
import Idealize.ShloMosaic.Lib.Pipeline.Value
import Idealize.ShloMosaic.Lib.ValueLayout
import Idealize.ShloMosaic.Lib.ValueIdx
import Idealize.ShloMosaic.PureOps.Ideal.Laws

noncomputable section

namespace Cert.EdgeRegion

open Cert.KernelIdeal Cert.KernelIdeal.Gen
open Idealize.ShloMosaic Idealize.ShloMosaic.ValueIdx

/-! ## The first product ([10000,128] by [128,64]): its operand indices, axis by axis -/

theorem lhsK1_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhsK1_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
theorem rhsK1_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
theorem rhsK1_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- The first product into a zero accumulator, at (p, k): the sum over the 128 contracted entries. -/
theorem matmulK1_apply (L : FVec Ideal S10000x128 .bf16) (R : FVec Ideal S128x64 .bf16) (p : Fin 10000) (k : Fin 64) :
    matmul dot_S10000x128_S128x64_S10000x64_1_0_0_1_n_n none L R (constant S10000x64 .f32 0x00000000#32) (ix2 p k)
      = ∑ j : Fin 128, L (ix2 p j) * R (ix2 j k) := by
  simp only [matmul]
  rw [Ideal.matmul_constant_zero_apply, ← Equiv.sum_comp (contrEquiv1 dot_S10000x128_S128x64_S10000x64_1_0_0_1_n_n 128 rfl rfl).symm]
  refine Finset.sum_congr rfl fun j _ => ?_
  have hj := contrEquiv1_symm_val dot_S10000x128_S128x64_S10000x64_1_0_0_1_n_n 128 rfl rfl j
  have el : dot_S10000x128_S128x64_S10000x64_1_0_0_1_n_n.lhsIdx (ix2 p k) ((contrEquiv1 dot_S10000x128_S128x64_S10000x64_1_0_0_1_n_n 128 rfl rfl).symm j) = ix2 p j := funext fun a => Fin.ext (by
    match a with
    | ⟨0, _⟩ => exact lhsK1_0 _ _
    | ⟨1, _⟩ => exact (lhsK1_1 _ _).trans hj)
  have er : dot_S10000x128_S128x64_S10000x64_1_0_0_1_n_n.rhsIdx (ix2 p k) ((contrEquiv1 dot_S10000x128_S128x64_S10000x64_1_0_0_1_n_n 128 rfl rfl).symm j) = ix2 j k := funext fun a => Fin.ext (by
    match a with
    | ⟨0, _⟩ => exact (rhsK1_0 _ _).trans hj
    | ⟨1, _⟩ => exact rhsK1_1 _ _)
  rw [el, er]

/-! ## The second product ([10000,64] by [64,64]): its operand indices, axis by axis -/

theorem lhsK2_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhsK2_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhsK2_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhsK2_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The second product into a zero accumulator, at (p, q): the sum over the 64 contracted entries. -/
theorem matmulK2_apply (L : FVec Ideal S10000x64 .bf16) (R : FVec Ideal S64x64 .bf16) (p : Fin 10000) (q : Fin 64) :
    matmul dot_S10000x64_S64x64_S10000x64_1_0_0_1_n_n none L R (constant S10000x64 .f32 0x00000000#32) (ix2 p q)
      = ∑ k : Fin 64, L (ix2 p k) * R (ix2 k q) := by
  simp only [matmul]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun a => Fin.ext (by
    match a with
    | ⟨0, _⟩ => exact lhsK2_0 _ _
    | ⟨1, _⟩ => exact (lhsK2_1 _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun a => Fin.ext (by
    match a with
    | ⟨0, _⟩ => exact (rhsK2_0 _ _).trans hk
    | ⟨1, _⟩ => exact rhsK2_1 _ _)
  rw [el, er]

/-! ## A bias laid under every row of the block -/

/-- The 64 bias entries cast to one row and broadcast down the 10000 rows: at (p, q), entry q of the bias. -/
theorem biasK_apply (b : Vec Ideal S64 .f32) (p : Fin 10000) (q : Fin 64) :
    broadcastTo S10000x64 (shapeCast S1x64 b shapeCasts_S64_S1x64) broadcasts_S1x64_S10000x64 (ix2 p q) = b (ix1 q) :=
  (broadcastTo_1b_ab_apply _ broadcasts_S1x64_S10000x64 p q).trans (shapeCast_a_1a_apply b shapeCasts_S64_S1x64 0 q)

/-! ## The stored value at an index -/

/-- Entry (p, q) of what the body stores is the row perceptron of row p of the block of E it loaded. -/
theorem pay_apply (v0 : Vec Ideal S10000x128 .f32) (v3 : Vec Ideal S128x64 .f32) (v6 : Vec Ideal S64 .f32)
    (v13 : Vec Ideal S64x64 .f32) (v16 : Vec Ideal S64 .f32) (p : Fin 10000) (q : Fin 64) :
    k0_pay1 (F := Ideal) v0 v3 v6 v13 v16 (ix2 p q) = rowMLP (fun j => v0 (ix2 p j)) v3 v6 v13 v16 q := by
  unfold k0_pay1 rowMLP
  rw [addf_apply, matmulK2_apply, biasK_apply]
  refine congrArg (· + v16 (ix1 q)) (Finset.sum_congr rfl fun k _ => ?_)
  refine congrArg (· * v13 (ix2 k q)) ?_
  rw [truncf_apply, maximumf_apply, addf_apply, matmulK1_apply, biasK_apply, broadcast_apply]
  unfold hiddenRow
  simp only [truncf_apply, shapeCast_self]
  rfl

end Cert.EdgeRegion

end
-- ==== Proof.EdgeRegionHostRow.lean ====
/-
  The host's edge perceptron read at an index. At the ideal values each dot_general is, at an index, the sum over the
  contracted axis of the products of the operands' entries; a bias of 64 entries broadcast to one row and then to the
  million rows is the bias entry of the column; the broadcast scalar zero is zero everywhere. So entry (r, q) of
  max(E · W1 + b1, 0) · W2 + b2 is the row perceptron of row r of E.
-/
import proofs.«423583_j24773371363898_1_alg».proof.Proof.Terms
import proofs.«423583_j24773371363898_1_alg».proof.Proof.EdgeRegionRow
import Idealize.ShloMosaic.Lib.Pipeline.Value
import Idealize.ShloMosaic.Lib.ValueIdx
import Idealize.ShloMosaic.PureOps.Ideal.Laws

noncomputable section

namespace Cert.EdgeRegion

open Cert.ReferenceIdeal Cert.ReferenceIdeal.Gen
open Idealize.ShloMosaic Idealize.ShloMosaic.ValueIdx

/-! ## The first product ([1000000,128] by [128,64]): its operand indices, axis by axis -/

theorem lhsH1_0 (i : S1000000x64.Idx) (q : dot_S1000000x128_S128x64_S1000000x64_1_0_0_1_n_n.contr.Idx) :
    (dot_S1000000x128_S128x64_S1000000x64_1_0_0_1_n_n.lhsIdx i q 0).val = (i 0).val := by
  unfold DotDims.lhsIdx
  rw [dif_neg (show ¬(0 : Fin S1000000x128.rank) ∈ dot_S1000000x128_S128x64_S1000000x64_1_0_0_1_n_n.lhsBatch by decide), dif_pos (show (0 : Fin S1000000x128.rank) ∈ dot_S1000000x128_S128x64_S1000000x64_1_0_0_1_n_n.lhsNonContracting by decide)]
  rfl
theorem lhsH1_1 (i : S1000000x64.Idx) (q : dot_S1000000x128_S128x64_S1000000x64_1_0_0_1_n_n.contr.Idx) :
    (dot_S1000000x128_S128x64_S1000000x64_1_0_0_1_n_n.lhsIdx i q 1).val = (q ⟨0, by decide⟩).val :=
  dot_S1000000x128_S128x64_S1000000x64_1_0_0_1_n_n.lhsIdx_val_of_single rfl i q
theorem rhsH1_0 (i : S1000000x64.Idx) (q : dot_S1000000x128_S128x64_S1000000x64_1_0_0_1_n_n.contr.Idx) :
    (dot_S1000000x128_S128x64_S1000000x64_1_0_0_1_n_n.rhsIdx i q 0).val = (q ⟨0, by decide⟩).val :=
  dot_S1000000x128_S128x64_S1000000x64_1_0_0_1_n_n.rhsIdx_val_of_single rfl i q
theorem rhsH1_1 (i : S1000000x64.Idx) (q : dot_S1000000x128_S128x64_S1000000x64_1_0_0_1_n_n.contr.Idx) :
    (dot_S1000000x128_S128x64_S1000000x64_1_0_0_1_n_n.rhsIdx i q 1).val = (i 1).val := by
  unfold DotDims.rhsIdx
  rw [dif_neg (show ¬(1 : Fin S128x64.rank) ∈ dot_S1000000x128_S128x64_S1000000x64_1_0_0_1_n_n.rhsBatch by decide), dif_pos (show (1 : Fin S128x64.rank) ∈ dot_S1000000x128_S128x64_S1000000x64_1_0_0_1_n_n.rhsNonContracting by decide)]
  rfl

/-- The first dot_general at (r, k): the sum over the 128 contracted entries. -/
theorem dotH1_apply (L : FVec Ideal S1000000x128 .f32) (R : FVec Ideal S128x64 .f32) (r : Fin 1000000) (k : Fin 64) :
    Host.dotGeneral dot_S1000000x128_S128x64_S1000000x64_1_0_0_1_n_n none L R (ix2 r k)
      = ∑ j : Fin 128, L (ix2 r j) * R (ix2 j k) := by
  simp only [Host.dotGeneral]
  rw [Ideal.dotGeneral_apply, ← Equiv.sum_comp (contrEquiv1 dot_S1000000x128_S128x64_S1000000x64_1_0_0_1_n_n 128 rfl rfl).symm]
  refine Finset.sum_congr rfl fun j _ => ?_
  have hj := contrEquiv1_symm_val dot_S1000000x128_S128x64_S1000000x64_1_0_0_1_n_n 128 rfl rfl j
  have el : dot_S1000000x128_S128x64_S1000000x64_1_0_0_1_n_n.lhsIdx (ix2 r k) ((contrEquiv1 dot_S1000000x128_S128x64_S1000000x64_1_0_0_1_n_n 128 rfl rfl).symm j) = ix2 r j := funext fun a => Fin.ext (by
    match a with
    | ⟨0, _⟩ => exact lhsH1_0 _ _
    | ⟨1, _⟩ => exact (lhsH1_1 _ _).trans hj)
  have er : dot_S1000000x128_S128x64_S1000000x64_1_0_0_1_n_n.rhsIdx (ix2 r k) ((contrEquiv1 dot_S1000000x128_S128x64_S1000000x64_1_0_0_1_n_n 128 rfl rfl).symm j) = ix2 j k := funext fun a => Fin.ext (by
    match a with
    | ⟨0, _⟩ => exact (rhsH1_0 _ _).trans hj
    | ⟨1, _⟩ => exact rhsH1_1 _ _)
  rw [el, er]

/-! ## The second product ([1000000,64] by [64,64]): its operand indices, axis by axis -/

theorem lhsH2_0 (i : S1000000x64.Idx) (q : dot_S1000000x64_S64x64_S1000000x64_1_0_0_1_n_n.contr.Idx) :
    (dot_S1000000x64_S64x64_S1000000x64_1_0_0_1_n_n.lhsIdx i q 0).val = (i 0).val := by
  unfold DotDims.lhsIdx
  rw [dif_neg (show ¬(0 : Fin S1000000x64.rank) ∈ dot_S1000000x64_S64x64_S1000000x64_1_0_0_1_n_n.lhsBatch by decide), dif_pos (show (0 : Fin S1000000x64.rank) ∈ dot_S1000000x64_S64x64_S1000000x64_1_0_0_1_n_n.lhsNonContracting by decide)]
  rfl
theorem lhsH2_1 (i : S1000000x64.Idx) (q : dot_S1000000x64_S64x64_S1000000x64_1_0_0_1_n_n.contr.Idx) :
    (dot_S1000000x64_S64x64_S1000000x64_1_0_0_1_n_n.lhsIdx i q 1).val = (q ⟨0, by decide⟩).val :=
  dot_S1000000x64_S64x64_S1000000x64_1_0_0_1_n_n.lhsIdx_val_of_single rfl i q
theorem rhsH2_0 (i : S1000000x64.Idx) (q : dot_S1000000x64_S64x64_S1000000x64_1_0_0_1_n_n.contr.Idx) :
    (dot_S1000000x64_S64x64_S1000000x64_1_0_0_1_n_n.rhsIdx i q 0).val = (q ⟨0, by decide⟩).val :=
  dot_S1000000x64_S64x64_S1000000x64_1_0_0_1_n_n.rhsIdx_val_of_single rfl i q
theorem rhsH2_1 (i : S1000000x64.Idx) (q : dot_S1000000x64_S64x64_S1000000x64_1_0_0_1_n_n.contr.Idx) :
    (dot_S1000000x64_S64x64_S1000000x64_1_0_0_1_n_n.rhsIdx i q 1).val = (i 1).val := by
  unfold DotDims.rhsIdx
  rw [dif_neg (show ¬(1 : Fin S64x64.rank) ∈ dot_S1000000x64_S64x64_S1000000x64_1_0_0_1_n_n.rhsBatch by decide), dif_pos (show (1 : Fin S64x64.rank) ∈ dot_S1000000x64_S64x64_S1000000x64_1_0_0_1_n_n.rhsNonContracting by decide)]
  rfl

/-- The second dot_general at (r, q): the sum over the 64 contracted entries. -/
theorem dotH2_apply (L : FVec Ideal S1000000x64 .f32) (R : FVec Ideal S64x64 .f32) (r : Fin 1000000) (q : Fin 64) :
    Host.dotGeneral dot_S1000000x64_S64x64_S1000000x64_1_0_0_1_n_n none L R (ix2 r q)
      = ∑ k : Fin 64, L (ix2 r k) * R (ix2 k q) := by
  simp only [Host.dotGeneral]
  rw [Ideal.dotGeneral_apply, ← Equiv.sum_comp (contrEquiv1 dot_S1000000x64_S64x64_S1000000x64_1_0_0_1_n_n 64 rfl rfl).symm]
  refine Finset.sum_congr rfl fun k _ => ?_
  have hk := contrEquiv1_symm_val dot_S1000000x64_S64x64_S1000000x64_1_0_0_1_n_n 64 rfl rfl k
  have el : dot_S1000000x64_S64x64_S1000000x64_1_0_0_1_n_n.lhsIdx (ix2 r q) ((contrEquiv1 dot_S1000000x64_S64x64_S1000000x64_1_0_0_1_n_n 64 rfl rfl).symm k) = ix2 r k := funext fun a => Fin.ext (by
    match a with
    | ⟨0, _⟩ => exact lhsH2_0 _ _
    | ⟨1, _⟩ => exact (lhsH2_1 _ _).trans hk)
  have er : dot_S1000000x64_S64x64_S1000000x64_1_0_0_1_n_n.rhsIdx (ix2 r q) ((contrEquiv1 dot_S1000000x64_S64x64_S1000000x64_1_0_0_1_n_n 64 rfl rfl).symm k) = ix2 k q := funext fun a => Fin.ext (by
    match a with
    | ⟨0, _⟩ => exact (rhsH2_0 _ _).trans hk
    | ⟨1, _⟩ => exact rhsH2_1 _ _)
  rw [el, er]

/-! ## A bias laid under every edge row, and the zero of the maximum -/

/-- The bias broadcast to one row and then to the million rows: at (r, q), entry q of the bias. -/
theorem biasE_apply (b : FVec Ideal S64 .f32) (r : Fin 1000000) (q : Fin 64) :
    Cert.Terms.biasE (F := Ideal) b (ix2 r q) = b (ix1 q) := by
  unfold Cert.Terms.biasE
  refine (broadcastInDim_apply _ bcast_S1x64_S1000000x64_0_1 _ (ix2 r q) (ix2 (0 : Fin 1) q) (fun a => ?_)).trans
    (broadcastInDim_apply _ bcast_S64_S1x64_1 b (ix2 (0 : Fin 1) q) (ix1 q) (fun a => ?_))
  · match a with
    | ⟨0, _⟩ => show 0 = if (1 : Nat) = 1 then 0 else r.val; rw [if_pos rfl]
    | ⟨1, _⟩ => show q.val = if (64 : Nat) = 1 then 0 else q.val; rw [if_neg (by decide)]
  · match a with
    | ⟨0, _⟩ => show q.val = if (64 : Nat) = 1 then 0 else q.val; rw [if_neg (by decide)]

/-! ## The whole term at an index -/

/-- Entry (r, q) of the edge perceptron of the whole arrays is the row perceptron of row r of E. -/
theorem edgeMLP_apply (E : FVec Ideal S1000000x128 .f32) (W1 : FVec Ideal S128x64 .f32) (b1 : FVec Ideal S64 .f32)
    (W2 : FVec Ideal S64x64 .f32) (b2 : FVec Ideal S64 .f32) (r : Fin 1000000) (q : Fin 64) :
    Cert.Terms.edgeMLP (F := Ideal) E W1 b1 W2 b2 (ix2 r q) = rowMLP (fun j => E (ix2 r j)) W1 b1 W2 b2 q := by
  unfold Cert.Terms.edgeMLP rowMLP
  rw [addf_apply, dotH2_apply, biasE_apply]
  refine congrArg (· + b2 (ix1 q)) (Finset.sum_congr rfl fun k _ => ?_)
  refine congrArg (· * W2 (ix2 k q)) ?_
  rw [maximumf_apply, addf_apply, dotH1_apply, biasE_apply]
  rfl

end Cert.EdgeRegion

end
-- ==== Proof.EdgeRegion.lean ====
/-
  The edge region, read as a whole array: the kernel computes the edge perceptron block of 10000 rows by block, and the
  hundred blocks written back tile the million rows, so the output array after the region is the perceptron of the
  region's input array, row by row.

  Point t of the grid of 100 loads block t of E (rows 10000·t … 10000·t + 9999) and the whole weight tables and
  biases, and writes back block t of the output. Entry (p, q) of what it writes is the row perceptron of row p of its
  block of E, which is row 10000·t + p of E; entry (10000·t + p, q) of the perceptron of the whole arrays is the row
  perceptron of that same row. Row r of the output lies in the block of point r / 10000.
-/
import proofs.«423583_j24773371363898_1_alg».proof.Proof.Gen.KernelIdeal.Frame
import proofs.«423583_j24773371363898_1_alg».proof.Proof.Terms
import proofs.«423583_j24773371363898_1_alg».proof.Proof.EdgeRegionKernelRow
import proofs.«423583_j24773371363898_1_alg».proof.Proof.EdgeRegionHostRow
import Idealize.ShloMosaic.Lib.Pipeline.Value
import Idealize.ShloMosaic.Lib.ValueIdx
import Idealize.ShloMosaic.PureOps.Ideal.Laws

set_option maxRecDepth 16384

noncomputable section

namespace Cert.EdgeRegion

open Cert.KernelIdeal Cert.KernelIdeal.Gen
open Idealize.ShloMosaic Idealize.ShloMosaic.TcCoe Idealize.SL.Sem
open Idealize.ShloMosaic.ValueIdx

/-! ## One point of the grid, over plain vectors -/

/-- If `x0` is block `T` of `E` (its row p is row 10000·T + p of E) and the other four loaded vectors are the weight
    tables and biases themselves, then what the body stores is block `T` of the edge perceptron of the whole arrays. -/
theorem block_point (E : FVec Ideal S1000000x128 .f32) (W1 : FVec Ideal S128x64 .f32) (b1 : FVec Ideal S64 .f32)
    (W2 : FVec Ideal S64x64 .f32) (b2 : FVec Ideal S64 .f32)
    (x0 : Vec Ideal S10000x128 .f32) (x1 : Vec Ideal S128x64 .f32) (x2 : Vec Ideal S64 .f32)
    (x3 : Vec Ideal S64x64 .f32) (x4 : Vec Ideal S64 .f32) (T : Nat)
    (h0 : ∀ (p : Fin 10000) (j : Fin 128) (r : Fin 1000000), r.val = T * 10000 + p.val → x0 (ix2 p j) = E (ix2 r j))
    (h1 : x1 = W1) (h2 : x2 = b1) (h3 : x3 = W2) (h4 : x4 = b2)
    (y : S10000x64.Idx) (i : S1000000x64.Idx) (hi0 : (i 0).val = T * 10000 + (y 0).val) (hi1 : (i 1).val = (y 1).val) :
    k0_pay1 (F := Ideal) x0 x1 x2 x3 x4 y = Cert.Terms.edgeMLP (F := Ideal) E W1 b1 W2 b2 i := by
  subst h1 h2 h3 h4
  obtain ⟨p, q, rfl⟩ : ∃ (p : Fin 10000) (q : Fin 64), y = ix2 p q := ⟨y 0, y 1, eq_ix2 y⟩
  obtain ⟨r, q', rfl⟩ : ∃ (r : Fin 1000000) (q' : Fin 64), i = ix2 r q' := ⟨i 0, i 1, eq_ix2 i⟩
  obtain rfl : q' = q := Fin.ext hi1
  rw [pay_apply, edgeMLP_apply]
  exact congrArg (fun e => rowMLP e x1 x2 x3 x4 q') (funext fun j => h0 p j r hi0)

/-! ## The printed index maps over the grid -/

theorem hz2 : (![0, 0] : Fin 2 → Nat) = fun _ => 0 := funext fun a => by fin_cases a <;> rfl
theorem hz1 : (![0] : Fin 1 → Nat) = fun _ => 0 := funext fun a => by fin_cases a <;> rfl

/-- Point t takes block (t, 0) of E and of the output, and block 0 of each weight table and bias. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

section AtEntry
-- the TensorCore's buffer contents when the region is entered
variable (V : (c : Dev nD) → (b : Ref sig .tc) → Buf (Elt Ideal) ((c : Thread nD τ).loc b))

/-! ## The input windows' blocks as parts of the arrays the region finds -/

/-- Row p of block t of E is row 10000·t + p of E. -/
theorem iblk_E_apply (c : Dev nD) (t : Fin cfg0.N) (p : Fin 10000) (j : Fin 128) (r : Fin 1000000)
    (hr : r.val = t.val * 10000 + p.val) :
    (iblk0 (F := Ideal) V c 0 t : Vec Ideal S10000x128 .f32) (ix2 p j)
      = (V c (Pipeline.arrRef spec0 0) : S1000000x128.Idx → Elt Ideal .f32) (ix2 r j) := by
  obtain ⟨e00, e01, -⟩ := idx_facts t
  show V c (Pipeline.arrRef spec0 0) (((cfg0.win 0).blk t).view.emb (ix2 p j)) = _
  refine congrArg _ (funext fun a => Fin.ext ?_)
  match a with
  | ⟨0, _⟩ => show win0_0.index t (0 : Fin 2) * 10000 + 1 * p.val = r.val; omega
  | ⟨1, _⟩ => show win0_0.index t (1 : Fin 2) * 128 + 1 * j.val = j.val; omega

/-- The block of the first weight table is the table. -/
theorem iblk_W1_eq (c : Dev nD) (t : Fin cfg0.N) :
    (iblk0 (F := Ideal) V c 1 t : Vec Ideal S128x64 .f32) = (V c (Pipeline.arrRef spec0 1) : S128x64.Idx → Elt Ideal .f32) := by
  obtain ⟨-, -, e10, e11, -⟩ := idx_facts t
  funext y
  show V c (Pipeline.arrRef spec0 1) (((cfg0.win 1).blk t).view.emb y) = _
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 64 + 1 * (y 1).val = (y 1).val; omega

/-- The block of the first bias is the bias. -/
theorem iblk_b1_eq (c : Dev nD) (t : Fin cfg0.N) :
    (iblk0 (F := Ideal) V c 2 t : Vec Ideal S64 .f32) = (V c (Pipeline.arrRef spec0 2) : S64.Idx → Elt Ideal .f32) := by
  obtain ⟨-, -, -, -, e20, -⟩ := idx_facts t
  funext y
  show V c (Pipeline.arrRef spec0 2) (((cfg0.win 2).blk t).view.emb y) = _
  refine congrArg _ (funext fun a => Fin.ext ?_)
  match a with
  | ⟨0, _⟩ => show win0_2.index t (0 : Fin 1) * 64 + 1 * (y 0).val = (y 0).val; omega

/-- The block of the second weight table is the table. -/
theorem iblk_W2_eq (c : Dev nD) (t : Fin cfg0.N) :
    (iblk0 (F := Ideal) V c 3 t : Vec Ideal S64x64 .f32) = (V c (Pipeline.arrRef spec0 3) : S64x64.Idx → Elt Ideal .f32) := by
  obtain ⟨-, -, -, -, -, e30, e31, -⟩ := idx_facts t
  funext y
  show V c (Pipeline.arrRef spec0 3) (((cfg0.win 3).blk t).view.emb y) = _
  refine congrArg _ (funext fun a => Fin.ext ?_)
  match a with
  | ⟨0, _⟩ => show win0_3.index t (0 : Fin 2) * 64 + 1 * (y 0).val = (y 0).val; omega
  | ⟨1, _⟩ => show win0_3.index t (1 : Fin 2) * 64 + 1 * (y 1).val = (y 1).val; omega

/-- The block of the second bias is the bias. -/
theorem iblk_b2_eq (c : Dev nD) (t : Fin cfg0.N) :
    (iblk0 (F := Ideal) V c 4 t : Vec Ideal S64 .f32) = (V c (Pipeline.arrRef spec0 4) : S64.Idx → Elt Ideal .f32) := by
  obtain ⟨-, -, -, -, -, -, -, e40, -⟩ := idx_facts t
  funext y
  show V c (Pipeline.arrRef spec0 4) (((cfg0.win 4).blk t).view.emb y) = _
  refine congrArg _ (funext fun a => Fin.ext ?_)
  match a with
  | ⟨0, _⟩ => show win0_4.index t (0 : Fin 1) * 64 + 1 * (y 0).val = (y 0).val; omega

/-! ## What a point writes back -/

/-- Point t writes back block t of the edge perceptron of the arrays the region found. -/
theorem flushed_eq (c : Dev nD) (t : Fin cfg0.N) :
    (dat0 (F := Ideal) V c).flushed 5 t = ((cfg0.win 5).blk t).view.read (Elt Ideal)
      (Cert.Terms.edgeMLP (F := Ideal) (V c (Pipeline.arrRef spec0 0)) (V c (Pipeline.arrRef spec0 1)) (V c (Pipeline.arrRef spec0 2))
        (V c (Pipeline.arrRef spec0 3)) (V c (Pipeline.arrRef spec0 4))) := by
  show (cfg0.win 5).cut (grid0.coords t) ((dat0 V c).after 5 t) = _
  rw [after0_5]
  unfold out0_5
  rw [View.canon_unit_zero hz2]
  simp only [View.ld_unit_zero (S := S10000x128) hz2, View.ld_unit_zero (S := S128x64) hz2, View.ld_unit_zero (S := S64) hz1,
    View.ld_unit_zero (S := S64x64) hz2]
  obtain ⟨-, -, -, -, -, -, -, -, e50, e51⟩ := idx_facts t
  funext y
  show k0_pay1 (F := Ideal) (iblk0 V c 0 t) (iblk0 V c 1 t) (iblk0 V c 2 t) (iblk0 V c 3 t) (iblk0 V c 4 t) y
    = Cert.Terms.edgeMLP (F := Ideal) (V c (Pipeline.arrRef spec0 0)) (V c (Pipeline.arrRef spec0 1)) (V c (Pipeline.arrRef spec0 2))
        (V c (Pipeline.arrRef spec0 3)) (V c (Pipeline.arrRef spec0 4)) (((cfg0.win 5).blk t).view.emb y)
  refine block_point _ _ _ _ _ _ _ _ _ _ t.val (iblk_E_apply V c t) (iblk_W1_eq V c t) (iblk_b1_eq V c t) (iblk_W2_eq V c t)
    (iblk_b2_eq V c t) y _ ?_ ?_
  · show win0_5.index t (0 : Fin 2) * 10000 + 1 * (y 0).val = t.val * 10000 + (y 0).val; omega
  · show win0_5.index t (1 : Fin 2) * 64 + 1 * (y 1).val = (y 1).val; omega

/-! ## The blocks written back tile the output -/

/-- An index of the output is in point t's block iff each coordinate is in the block's range on its axis. -/
theorem mem_blk (t : Fin cfg0.N) (i : S1000000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v6).slice (win0_5.rect t)).set ↔ _
  rw [View.set_slice_whole, Rect.mem_set_unit]
  exact Iff.rfl

/-- Row r of the output lies in the block of point r / 10000, and every point writes back. -/
theorem cover (i : S1000000x64.Idx) : ∃ t : Fin cfg0.N, (cfg0.win 5).flush t = true ∧ i ∈ ((cfg0.win 5).blk t).view.set := by
  have hi0 : (i 0).val < 1000000 := (i 0).isLt
  have hi1 : (i 1).val < 64 := (i 1).isLt
  have hN : cfg0.N = 100 := N_0
  have hlt : (i 0).val / 10000 < cfg0.N := by rw [hN]; omega
  obtain ⟨-, -, -, -, -, -, -, -, e50, e51⟩ := idx_facts ⟨(i 0).val / 10000, hlt⟩
  have e50' : win0_5.index ⟨(i 0).val / 10000, hlt⟩ (0 : Fin 2) = (i 0).val / 10000 := e50
  refine ⟨⟨(i 0).val / 10000, hlt⟩, flush0_5 _, ?_⟩
  rw [mem_blk]
  intro a
  match a with
  | ⟨0, _⟩ => show win0_5.index ⟨(i 0).val / 10000, hlt⟩ (0 : Fin 2) * 10000 ≤ (i 0).val ∧ (i 0).val < win0_5.index ⟨(i 0).val / 10000, hlt⟩ (0 : Fin 2) * 10000 + 10000; omega
  | ⟨1, _⟩ => show win0_5.index ⟨(i 0).val / 10000, hlt⟩ (1 : Fin 2) * 64 ≤ (i 1).val ∧ (i 1).val < win0_5.index ⟨(i 0).val / 10000, hlt⟩ (1 : Fin 2) * 64 + 64; omega

end AtEntry

/-- After the edge region its output array is the edge perceptron of the arrays the region found. -/
theorem array_eq (V : (c : Dev nD) → (b : Ref sig .tc) → Buf (Elt Ideal) ((c : Thread nD τ).loc b)) (c : Dev nD) :
    (dat0 (F := Ideal) V c).arrAt 5 cfg0.N
      = Cert.Terms.edgeMLP (F := Ideal) (V c (Pipeline.arrRef spec0 0)) (V c (Pipeline.arrRef spec0 1)) (V c (Pipeline.arrRef spec0 2))
          (V c (Pipeline.arrRef spec0 3)) (V c (Pipeline.arrRef spec0 4)) :=
  (dat0 (F := Ideal) V c).arrAt_eq_of_cover 5 _ (fun t _ => flushed_eq V c t) cover

end Cert.EdgeRegion

end
-- ==== Proof.NodeRegionRow.lean ====
/-
  One entry of the node perceptron from one joined row, and three 64-column tables side by side read at an index.

  rowMLP h W3 b3 W4 b4 q = (∑ k, max ((∑ l, h l · W3 l k) + b3 k) 0 · W4 k q) + b4 q   for a row h of 192 entries;
  join3 X0 X1 X2 r l     = X0 (r, l) for l < 64, X1 (r, l − 64) for 64 ≤ l < 128, X2 (r, l − 128) for 128 ≤ l.

  Both the kernel's block computation and the host's whole-array term are, entry by entry, rowMLP of a join3 row.
-/
import Idealize.ShloMosaic.Lib.Pipeline.Value
import Idealize.ShloMosaic.Lib.ValueIdx
import Idealize.ShloMosaic.PureOps.Ideal.Laws

noncomputable section

namespace Cert.NodeRegion

open Idealize.ShloMosaic Idealize.ShloMosaic.ValueIdx

/-- One output entry of the two-layer perceptron, from one row of 192 inputs. -/
def rowMLP (h : Fin 192 → EReal) (W3 : Fin 192 → Fin 64 → EReal) (b3 : Fin 64 → EReal) (W4 : Fin 64 → Fin 64 → EReal)
    (b4 : Fin 64 → EReal) (q : Fin 64) : EReal :=
  (∑ k : Fin 64, max ((∑ l : Fin 192, h l * W3 l k) + b3 k) 0 * W4 k q) + b4 q

variable {α : Type}

/-- Entry (r, l) of three tables of 64 columns laid side by side. -/
def join3 {N : Nat} (X0 X1 X2 : (⟨2, ![N, 64]⟩ : Shape).Idx → α) (r : Fin N) (l : Fin 192) : α :=
  if h : l.val < 64 then X0 (ix2 r ⟨l.val, h⟩)
  else if h' : l.val < 128 then X1 (ix2 r ⟨l.val - 64, by omega⟩)
  else X2 (ix2 r ⟨l.val - 128, by omega⟩)

/-- A concatenation of three 64-column tables along the columns, read at (r, l): the table whose column span holds l. -/
theorem concat3_apply {N : Nat} (X0 X1 X2 : (⟨2, ![N, 64]⟩ : Shape).Idx → α)
    (h : Shape.Concatenates [(⟨2, ![N, 64]⟩ : Shape), ⟨2, ![N, 64]⟩, ⟨2, ![N, 64]⟩] ⟨2, ![N, 192]⟩ 1) (r : Fin N) (l : Fin 192) :
    concatenate (⟨2, ![N, 192]⟩ : Shape) 1 [⟨⟨2, ![N, 64]⟩, X0⟩, ⟨⟨2, ![N, 64]⟩, X1⟩, ⟨⟨2, ![N, 64]⟩, X2⟩] h (ix2 r l)
      = join3 X0 X1 X2 r l := by
  unfold join3
  split
  · next h0 =>
    exact concatenate_apply_piece (t := ⟨2, ![N, 192]⟩) (1 : Fin 2) [⟨⟨2, ![N, 64]⟩, X0⟩, ⟨⟨2, ![N, 64]⟩, X1⟩, ⟨⟨2, ![N, 64]⟩, X2⟩] h (ix2 r l)
      0 (by show (0 : Nat) < 3; omega) ⟨2, ![N, 64]⟩ X0 rfl rfl 0 rfl (ix2 r ⟨l.val, h0⟩)
      (fun b hb => by
        match b with
        | ⟨0, _⟩ => rfl
        | ⟨1, _⟩ => exact absurd rfl hb)
      (by show 0 + l.val = l.val; omega)
  · next h0 =>
    split
    · next h1 =>
      exact concatenate_apply_piece (t := ⟨2, ![N, 192]⟩) (1 : Fin 2) [⟨⟨2, ![N, 64]⟩, X0⟩, ⟨⟨2, ![N, 64]⟩, X1⟩, ⟨⟨2, ![N, 64]⟩, X2⟩] h (ix2 r l)
        1 (by show (1 : Nat) < 3; omega) ⟨2, ![N, 64]⟩ X1 rfl rfl 64 rfl (ix2 r ⟨l.val - 64, by omega⟩)
        (fun b hb => by
          match b with
          | ⟨0, _⟩ => rfl
          | ⟨1, _⟩ => exact absurd rfl hb)
        (by show 64 + (l.val - 64) = l.val; omega)
    · next h1 =>
      exact concatenate_apply_piece (t := ⟨2, ![N, 192]⟩) (1 : Fin 2) [⟨⟨2, ![N, 64]⟩, X0⟩, ⟨⟨2, ![N, 64]⟩, X1⟩, ⟨⟨2, ![N, 64]⟩, X2⟩] h (ix2 r l)
        2 (by show (2 : Nat) < 3; omega) ⟨2, ![N, 64]⟩ X2 rfl rfl 128 rfl (ix2 r ⟨l.val - 128, by omega⟩)
        (fun b hb => by
          match b with
          | ⟨0, _⟩ => rfl
          | ⟨1, _⟩ => exact absurd rfl hb)
        (by show 128 + (l.val - 128) = l.val; have := l.isLt; omega)

end Cert.NodeRegion

end
-- ==== Proof.NodeRegionHost.lean ====
/-
  The host's node perceptron read at an index: entry (r, q) of nodeMLP H W3 b3 W4 b4 is rowMLP of row r of H, and
  row r of the three tables joined side by side is join3 of them.
-/
import proofs.«423583_j24773371363898_1_alg».proof.Proof.Terms
import proofs.«423583_j24773371363898_1_alg».proof.Proof.NodeRegionRow
import Idealize.ShloMosaic.Lib.Pipeline.Value
import Idealize.ShloMosaic.Lib.ValueIdx
import Idealize.ShloMosaic.PureOps.Ideal.Laws

noncomputable section

namespace Cert.NodeRegion

open Idealize.ShloMosaic Idealize.ShloMosaic.ValueIdx Cert.ReferenceIdeal
open Cert.ReferenceIdeal.Facts₀ Cert.ReferenceIdeal.Facts

/-! ## The first product, [50000,192] · [192,64]: which operand entries an output entry reads -/

theorem hostA_lhs_0 (i : S50000x64.Idx) (q : dot_S50000x192_S192x64_S50000x64_1_0_0_1_n_n.contr.Idx) :
    (dot_S50000x192_S192x64_S50000x64_1_0_0_1_n_n.lhsIdx i q 0).val = (i 0).val := by
  unfold DotDims.lhsIdx
  rw [dif_neg (show ¬(0 : Fin S50000x192.rank) ∈ dot_S50000x192_S192x64_S50000x64_1_0_0_1_n_n.lhsBatch by decide), dif_pos (show (0 : Fin S50000x192.rank) ∈ dot_S50000x192_S192x64_S50000x64_1_0_0_1_n_n.lhsNonContracting by decide)]
  rfl
theorem hostA_lhs_1 (i : S50000x64.Idx) (q : dot_S50000x192_S192x64_S50000x64_1_0_0_1_n_n.contr.Idx) :
    (dot_S50000x192_S192x64_S50000x64_1_0_0_1_n_n.lhsIdx i q 1).val = (q ⟨0, by decide⟩).val :=
  dot_S50000x192_S192x64_S50000x64_1_0_0_1_n_n.lhsIdx_val_of_single rfl i q
theorem hostA_rhs_0 (i : S50000x64.Idx) (q : dot_S50000x192_S192x64_S50000x64_1_0_0_1_n_n.contr.Idx) :
    (dot_S50000x192_S192x64_S50000x64_1_0_0_1_n_n.rhsIdx i q 0).val = (q ⟨0, by decide⟩).val :=
  dot_S50000x192_S192x64_S50000x64_1_0_0_1_n_n.rhsIdx_val_of_single rfl i q
theorem hostA_rhs_1 (i : S50000x64.Idx) (q : dot_S50000x192_S192x64_S50000x64_1_0_0_1_n_n.contr.Idx) :
    (dot_S50000x192_S192x64_S50000x64_1_0_0_1_n_n.rhsIdx i q 1).val = (i 1).val := by
  unfold DotDims.rhsIdx
  rw [dif_neg (show ¬(1 : Fin S192x64.rank) ∈ dot_S50000x192_S192x64_S50000x64_1_0_0_1_n_n.rhsBatch by decide), dif_pos (show (1 : Fin S192x64.rank) ∈ dot_S50000x192_S192x64_S50000x64_1_0_0_1_n_n.rhsNonContracting by decide)]
  rfl

/-- Entry (r, k) of A · B is the sum over the 192 columns of row r of A against column k of B. -/
theorem hostA_apply (A : FVec Ideal S50000x192 .f32) (B : FVec Ideal S192x64 .f32) (r : Fin 50000) (k : Fin 64) :
    Host.dotGeneral (F := Ideal) dot_S50000x192_S192x64_S50000x64_1_0_0_1_n_n none A B (ix2 r k) = ∑ l : Fin 192, A (ix2 r l) * B (ix2 l k) := by
  simp only [Host.dotGeneral]
  rw [Ideal.dotGeneral_apply, ← Equiv.sum_comp (ValueIdx.contrEquiv1 dot_S50000x192_S192x64_S50000x64_1_0_0_1_n_n 192 rfl rfl).symm]
  refine Finset.sum_congr rfl fun l _ => ?_
  have hk := ValueIdx.contrEquiv1_symm_val dot_S50000x192_S192x64_S50000x64_1_0_0_1_n_n 192 rfl rfl l
  have el : dot_S50000x192_S192x64_S50000x64_1_0_0_1_n_n.lhsIdx (ix2 r k) ((ValueIdx.contrEquiv1 dot_S50000x192_S192x64_S50000x64_1_0_0_1_n_n 192 rfl rfl).symm l) = ix2 r l := funext fun a => Fin.ext (by
    match a with
    | ⟨0, _⟩ => exact hostA_lhs_0 _ _
    | ⟨1, _⟩ => exact (hostA_lhs_1 _ _).trans hk)
  have er : dot_S50000x192_S192x64_S50000x64_1_0_0_1_n_n.rhsIdx (ix2 r k) ((ValueIdx.contrEquiv1 dot_S50000x192_S192x64_S50000x64_1_0_0_1_n_n 192 rfl rfl).symm l) = ix2 l k := funext fun a => Fin.ext (by
    match a with
    | ⟨0, _⟩ => exact (hostA_rhs_0 _ _).trans hk
    | ⟨1, _⟩ => exact hostA_rhs_1 _ _)
  rw [el, er]

/-! ## The second product, [50000,64] · [64,64] -/

theorem hostB_lhs_0 (i : S50000x64.Idx) (q : dot_S50000x64_S64x64_S50000x64_1_0_0_1_n_n.contr.Idx) :
    (dot_S50000x64_S64x64_S50000x64_1_0_0_1_n_n.lhsIdx i q 0).val = (i 0).val := by
  unfold DotDims.lhsIdx
  rw [dif_neg (show ¬(0 : Fin S50000x64.rank) ∈ dot_S50000x64_S64x64_S50000x64_1_0_0_1_n_n.lhsBatch by decide), dif_pos (show (0 : Fin S50000x64.rank) ∈ dot_S50000x64_S64x64_S50000x64_1_0_0_1_n_n.lhsNonContracting by decide)]
  rfl
theorem hostB_lhs_1 (i : S50000x64.Idx) (q : dot_S50000x64_S64x64_S50000x64_1_0_0_1_n_n.contr.Idx) :
    (dot_S50000x64_S64x64_S50000x64_1_0_0_1_n_n.lhsIdx i q 1).val = (q ⟨0, by decide⟩).val :=
  dot_S50000x64_S64x64_S50000x64_1_0_0_1_n_n.lhsIdx_val_of_single rfl i q
theorem hostB_rhs_0 (i : S50000x64.Idx) (q : dot_S50000x64_S64x64_S50000x64_1_0_0_1_n_n.contr.Idx) :
    (dot_S50000x64_S64x64_S50000x64_1_0_0_1_n_n.rhsIdx i q 0).val = (q ⟨0, by decide⟩).val :=
  dot_S50000x64_S64x64_S50000x64_1_0_0_1_n_n.rhsIdx_val_of_single rfl i q
theorem hostB_rhs_1 (i : S50000x64.Idx) (q : dot_S50000x64_S64x64_S50000x64_1_0_0_1_n_n.contr.Idx) :
    (dot_S50000x64_S64x64_S50000x64_1_0_0_1_n_n.rhsIdx i q 1).val = (i 1).val := by
  unfold DotDims.rhsIdx
  rw [dif_neg (show ¬(1 : Fin S64x64.rank) ∈ dot_S50000x64_S64x64_S50000x64_1_0_0_1_n_n.rhsBatch by decide), dif_pos (show (1 : Fin S64x64.rank) ∈ dot_S50000x64_S64x64_S50000x64_1_0_0_1_n_n.rhsNonContracting by decide)]
  rfl

/-- Entry (r, q) of A · B is the sum over the 64 columns of row r of A against column q of B. -/
theorem hostB_apply (A : FVec Ideal S50000x64 .f32) (B : FVec Ideal S64x64 .f32) (r : Fin 50000) (q : Fin 64) :
    Host.dotGeneral (F := Ideal) dot_S50000x64_S64x64_S50000x64_1_0_0_1_n_n none A B (ix2 r q) = ∑ k : Fin 64, A (ix2 r k) * B (ix2 k q) := by
  simp only [Host.dotGeneral]
  rw [Ideal.dotGeneral_apply, ← Equiv.sum_comp (ValueIdx.contrEquiv1 dot_S50000x64_S64x64_S50000x64_1_0_0_1_n_n 64 rfl rfl).symm]
  refine Finset.sum_congr rfl fun k _ => ?_
  have hk := ValueIdx.contrEquiv1_symm_val dot_S50000x64_S64x64_S50000x64_1_0_0_1_n_n 64 rfl rfl k
  have el : dot_S50000x64_S64x64_S50000x64_1_0_0_1_n_n.lhsIdx (ix2 r q) ((ValueIdx.contrEquiv1 dot_S50000x64_S64x64_S50000x64_1_0_0_1_n_n 64 rfl rfl).symm k) = ix2 r k := funext fun a => Fin.ext (by
    match a with
    | ⟨0, _⟩ => exact hostB_lhs_0 _ _
    | ⟨1, _⟩ => exact (hostB_lhs_1 _ _).trans hk)
  have er : dot_S50000x64_S64x64_S50000x64_1_0_0_1_n_n.rhsIdx (ix2 r q) ((ValueIdx.contrEquiv1 dot_S50000x64_S64x64_S50000x64_1_0_0_1_n_n 64 rfl rfl).symm k) = ix2 k q := funext fun a => Fin.ext (by
    match a with
    | ⟨0, _⟩ => exact (hostB_rhs_0 _ _).trans hk
    | ⟨1, _⟩ => exact hostB_rhs_1 _ _)
  rw [el, er]

/-! ## The bias rows and the zero the maximum is taken against -/

/-- The bias laid under every row reads, at (r, q), its entry q. -/
theorem biasN_apply (b : FVec Ideal S64 .f32) (r : Fin 50000) (q : Fin 64) :
    Cert.Terms.biasN (F := Ideal) b (ix2 r q) = b (ix1 q) := by
  unfold Cert.Terms.biasN
  refine (broadcastInDim_apply _ bcast_S1x64_S50000x64_0_1 _ (ix2 r q) (ix2 (⟨0, Nat.one_pos⟩ : Fin 1) q) (fun a => match a with
    | ⟨0, _⟩ => by show 0 = if (1 : Nat) = 1 then 0 else r.val; rw [if_pos rfl]
    | ⟨1, _⟩ => by show q.val = if (64 : Nat) = 1 then 0 else q.val; rw [if_neg (by decide)])).trans ?_
  exact broadcastInDim_apply _ bcast_S64_S1x64_1 b (ix2 (⟨0, Nat.one_pos⟩ : Fin 1) q) (ix1 q) (fun a => match a with
    | ⟨0, _⟩ => by show q.val = if (64 : Nat) = 1 then 0 else q.val; rw [if_neg (by decide)])

/-- The scalar zero laid over the whole table is the extended real 0 at every entry. -/
theorem zeroN_apply (i : S50000x64.Idx) :
    broadcastInDim S50000x64 ![] bcast_S_S50000x64 (constant (F := Ideal) S_ .f32 0x00000000#32) i = 0 := by
  refine (broadcastInDim_apply _ bcast_S_S50000x64 _ i ix0 (fun a => a.elim0)).trans ?_
  show Ideal.ofBits .f32 0x00000000#32 = 0
  exact Ideal.ofBits_zero_f32

/-! ## The perceptron and the joined table at an index -/

/-- Entry (r, q) of the host's node perceptron is the row perceptron of row r of its input. -/
theorem nodeMLP_apply (H : FVec Ideal S50000x192 .f32) (W3 : FVec Ideal S192x64 .f32) (b3 : FVec Ideal S64 .f32)
    (W4 : FVec Ideal S64x64 .f32) (b4 : FVec Ideal S64 .f32) (r : Fin 50000) (q : Fin 64) :
    Cert.Terms.nodeMLP (F := Ideal) H W3 b3 W4 b4 (ix2 r q)
      = rowMLP (fun l => H (ix2 r l)) (fun l k => W3 (ix2 l k)) (fun k => b3 (ix1 k)) (fun k q' => W4 (ix2 k q'))
          (fun q' => b4 (ix1 q')) q := by
  unfold Cert.Terms.nodeMLP rowMLP
  rw [addf_apply, biasN_apply, hostB_apply]
  congr 1
  refine Finset.sum_congr rfl fun k _ => ?_
  rw [maximumf_apply, addf_apply, biasN_apply, hostA_apply, zeroN_apply]

/-- Entry (r, l) of the three tables joined side by side. -/
theorem joined_apply (x a u : FVec Ideal S50000x64 .f32) (r : Fin 50000) (l : Fin 192) :
    Cert.Terms.joined (F := Ideal) x a u (ix2 r l) = join3 x a u r l := by
  unfold Cert.Terms.joined
  exact concat3_apply x a u concatenates_S50000x64_S50000x64_S50000x64_S50000x192_d1 r l

end Cert.NodeRegion

end
-- ==== Proof.NodeRegionBody.lean ====
/-
  The kernel body's stored block read at an index: entry (p, q) of what the body stores is rowMLP of row p of its
  three loaded blocks joined side by side, against the weights and biases it loaded.
-/
import proofs.«423583_j24773371363898_1_alg».proof.Proof.Gen.KernelIdeal.Skeleton
import proofs.«423583_j24773371363898_1_alg».proof.Proof.NodeRegionRow
import Idealize.ShloMosaic.Lib.Pipeline.Value
import Idealize.ShloMosaic.Lib.ValueIdx
import Idealize.ShloMosaic.PureOps.Ideal.Laws

noncomputable section

namespace Cert.NodeRegion

open Idealize.ShloMosaic Idealize.ShloMosaic.ValueIdx Cert.KernelIdeal Cert.KernelIdeal.Gen
open Cert.KernelIdeal.Facts₀ Cert.KernelIdeal.Facts

/-! ## The first product, [5000,192] · [192,64]: which operand entries an output entry reads -/

theorem bodyA_lhs_0 (i : S5000x64.Idx) (q : dot_S5000x192_S192x64_S5000x64_1_0_0_1_n_n.contr.Idx) :
    (dot_S5000x192_S192x64_S5000x64_1_0_0_1_n_n.lhsIdx i q 0).val = (i 0).val := by
  unfold DotDims.lhsIdx
  rw [dif_neg (show ¬(0 : Fin S5000x192.rank) ∈ dot_S5000x192_S192x64_S5000x64_1_0_0_1_n_n.lhsBatch by decide), dif_pos (show (0 : Fin S5000x192.rank) ∈ dot_S5000x192_S192x64_S5000x64_1_0_0_1_n_n.lhsNonContracting by decide)]
  rfl
theorem bodyA_lhs_1 (i : S5000x64.Idx) (q : dot_S5000x192_S192x64_S5000x64_1_0_0_1_n_n.contr.Idx) :
    (dot_S5000x192_S192x64_S5000x64_1_0_0_1_n_n.lhsIdx i q 1).val = (q ⟨0, by decide⟩).val :=
  dot_S5000x192_S192x64_S5000x64_1_0_0_1_n_n.lhsIdx_val_of_single rfl i q
theorem bodyA_rhs_0 (i : S5000x64.Idx) (q : dot_S5000x192_S192x64_S5000x64_1_0_0_1_n_n.contr.Idx) :
    (dot_S5000x192_S192x64_S5000x64_1_0_0_1_n_n.rhsIdx i q 0).val = (q ⟨0, by decide⟩).val :=
  dot_S5000x192_S192x64_S5000x64_1_0_0_1_n_n.rhsIdx_val_of_single rfl i q
theorem bodyA_rhs_1 (i : S5000x64.Idx) (q : dot_S5000x192_S192x64_S5000x64_1_0_0_1_n_n.contr.Idx) :
    (dot_S5000x192_S192x64_S5000x64_1_0_0_1_n_n.rhsIdx i q 1).val = (i 1).val := by
  unfold DotDims.rhsIdx
  rw [dif_neg (show ¬(1 : Fin S192x64.rank) ∈ dot_S5000x192_S192x64_S5000x64_1_0_0_1_n_n.rhsBatch by decide), dif_pos (show (1 : Fin S192x64.rank) ∈ dot_S5000x192_S192x64_S5000x64_1_0_0_1_n_n.rhsNonContracting by decide)]
  rfl

/-- Entry (p, k) of A · B accumulated into zero: the sum over the 192 columns of row p of A against column k of B. -/
theorem bodyA_apply (A : FVec Ideal S5000x192 .bf16) (B : FVec Ideal S192x64 .bf16) (p : Fin 5000) (k : Fin 64) :
    matmul dot_S5000x192_S192x64_S5000x64_1_0_0_1_n_n none A B (constant (F := Ideal) S5000x64 .f32 0x00000000#32) (ix2 p k)
      = ∑ l : Fin 192, A (ix2 p l) * B (ix2 l k) := by
  simp only [matmul]
  rw [Ideal.matmul_constant_zero_apply, ← Equiv.sum_comp (ValueIdx.contrEquiv1 dot_S5000x192_S192x64_S5000x64_1_0_0_1_n_n 192 rfl rfl).symm]
  refine Finset.sum_congr rfl fun l _ => ?_
  have hk := ValueIdx.contrEquiv1_symm_val dot_S5000x192_S192x64_S5000x64_1_0_0_1_n_n 192 rfl rfl l
  have el : dot_S5000x192_S192x64_S5000x64_1_0_0_1_n_n.lhsIdx (ix2 p k) ((ValueIdx.contrEquiv1 dot_S5000x192_S192x64_S5000x64_1_0_0_1_n_n 192 rfl rfl).symm l) = ix2 p l := funext fun a => Fin.ext (by
    match a with
    | ⟨0, _⟩ => exact bodyA_lhs_0 _ _
    | ⟨1, _⟩ => exact (bodyA_lhs_1 _ _).trans hk)
  have er : dot_S5000x192_S192x64_S5000x64_1_0_0_1_n_n.rhsIdx (ix2 p k) ((ValueIdx.contrEquiv1 dot_S5000x192_S192x64_S5000x64_1_0_0_1_n_n 192 rfl rfl).symm l) = ix2 l k := funext fun a => Fin.ext (by
    match a with
    | ⟨0, _⟩ => exact (bodyA_rhs_0 _ _).trans hk
    | ⟨1, _⟩ => exact bodyA_rhs_1 _ _)
  rw [el, er]

/-! ## The second product, [5000,64] · [64,64] -/

theorem bodyB_lhs_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem bodyB_lhs_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem bodyB_rhs_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem bodyB_rhs_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- Entry (p, q) of A · B accumulated into zero: the sum over the 64 columns of row p of A against column q of B. -/
theorem bodyB_apply (A : FVec Ideal S5000x64 .bf16) (B : FVec Ideal S64x64 .bf16) (p : Fin 5000) (q : Fin 64) :
    matmul dot_S5000x64_S64x64_S5000x64_1_0_0_1_n_n none A B (constant (F := Ideal) S5000x64 .f32 0x00000000#32) (ix2 p q)
      = ∑ k : Fin 64, A (ix2 p k) * B (ix2 k q) := by
  simp only [matmul]
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact bodyB_lhs_0 _ _
    | ⟨1, _⟩ => exact (bodyB_lhs_1 _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (bodyB_rhs_0 _ _).trans hk
    | ⟨1, _⟩ => exact bodyB_rhs_1 _ _)
  rw [el, er]

/-! ## The bias rows and the zero the maximum is taken against -/

/-- A bias of 64 entries viewed as one row and repeated down the block reads, at (p, q), its entry q. -/
theorem biasBlk_apply (b : FVec Ideal S64 .f32) (hs : S64.ShapeCasts S1x64) (hb : S1x64.Broadcasts S5000x64) (p : Fin 5000)
    (q : Fin 64) : broadcastTo S5000x64 (shapeCast S1x64 b hs) hb (ix2 p q) = b (ix1 q) := by
  refine (broadcastTo_apply _ hb (ix2 p q) (ix2 (⟨0, Nat.one_pos⟩ : Fin 1) q) (fun a => match a with
    | ⟨0, _⟩ => by show 0 = if (1 : Nat) = 1 then 0 else p.val; rw [if_pos rfl]
    | ⟨1, _⟩ => by show q.val = if (64 : Nat) = 1 then 0 else q.val; rw [if_neg (by decide)])).trans ?_
  exact shapeCast_apply b hs (ix2 (⟨0, Nat.one_pos⟩ : Fin 1) q) (ix1 q) (by
    rw [Shape.rowMajor_val_one, Shape.rowMajor_val_two]
    show q.val = 0 * 64 + q.val
    omega)

/-! ## The stored block at an index -/

/-- Entry (p, q) of the block the body stores: the row perceptron of row p of the three loaded blocks joined. -/
theorem pay_apply (v0 v1 v3 : FVec Ideal S5000x64 .f32) (v7 : FVec Ideal S192x64 .f32) (v10 : FVec Ideal S64 .f32)
    (v17 : FVec Ideal S64x64 .f32) (v20 : FVec Ideal S64 .f32) (p : Fin 5000) (q : Fin 64) :
    k1_pay1 (F := Ideal) v0 v1 v3 v7 v10 v17 v20 (ix2 p q)
      = rowMLP (join3 v0 v1 v3 p) (fun l k => v7 (ix2 l k)) (fun k => v10 (ix1 k)) (fun k q' => v17 (ix2 k q'))
          (fun q' => v20 (ix1 q')) q := by
  unfold k1_pay1 rowMLP
  dsimp only
  rw [addf_apply, biasBlk_apply, bodyB_apply]
  congr 1
  refine Finset.sum_congr rfl fun k _ => ?_
  rw [truncf_apply, truncf_apply, maximumf_apply, addf_apply, biasBlk_apply, bodyA_apply, broadcast_apply]
  have hz : (Scalar.ofBits (F := Ideal) .f32 0x00000000#32 : Ideal .f32) = 0 := Ideal.ofBits_zero_f32
  rw [hz]
  congr 3
  refine Finset.sum_congr rfl fun l _ => ?_
  rw [truncf_apply, truncf_apply, shapeCast_self, shapeCast_self]
  exact congrArg (· * v7 (ix2 l k)) (concat3_apply v0 v1 v3 _ p l)

end Cert.NodeRegion

end
-- ==== Proof.NodeRegion.lean ====
/-
  The node region, read as a whole array: the kernel joins its three input blocks of 5000 rows side by side and computes
  the node perceptron of the joined block; the ten blocks written back tile the fifty thousand rows, so the output array
  after the region is the perceptron of the three input arrays joined, row by row.
-/
import proofs.«423583_j24773371363898_1_alg».proof.Proof.Gen.KernelIdeal.Frame
import proofs.«423583_j24773371363898_1_alg».proof.Proof.Terms
import proofs.«423583_j24773371363898_1_alg».proof.Proof.NodeRegionHost
import proofs.«423583_j24773371363898_1_alg».proof.Proof.NodeRegionBody
import Idealize.ShloMosaic.Lib.Pipeline.Value
import Idealize.ShloMosaic.Lib.ValueIdx
import Idealize.ShloMosaic.PureOps.Ideal.Laws

set_option maxRecDepth 16384

noncomputable section

namespace Cert.NodeRegion

open Cert.KernelIdeal Cert.KernelIdeal.Gen
open Idealize.ShloMosaic Idealize.ShloMosaic.TcCoe Idealize.SL.Sem
open Idealize.ShloMosaic.ValueIdx

/-! ## One stored entry against the whole-array term -/

/-- If the three loaded blocks are rows t·5000 … of three tables, entry j of what the body stores is the entry of the
    host's perceptron of the joined tables at row t·5000 + (row of j), same column: both are the row perceptron of the same
    joined row. -/
theorem point_eq (x a u : FVec Ideal S50000x64 .f32) (W3 : FVec Ideal S192x64 .f32) (b3 : FVec Ideal S64 .f32)
    (W4 : FVec Ideal S64x64 .f32) (b4 : FVec Ideal S64 .f32)
    (x0 x1 x2 : FVec Ideal S5000x64 .f32) (w3 : FVec Ideal S192x64 .f32) (c3 : FVec Ideal S64 .f32)
    (w4 : FVec Ideal S64x64 .f32) (c4 : FVec Ideal S64 .f32) (t : Nat)
    (h0 : ∀ (y : S5000x64.Idx) (i : S50000x64.Idx), (i 0).val = t * 5000 + (y 0).val → (i 1).val = (y 1).val → x0 y = x i)
    (h1 : ∀ (y : S5000x64.Idx) (i : S50000x64.Idx), (i 0).val = t * 5000 + (y 0).val → (i 1).val = (y 1).val → x1 y = a i)
    (h2 : ∀ (y : S5000x64.Idx) (i : S50000x64.Idx), (i 0).val = t * 5000 + (y 0).val → (i 1).val = (y 1).val → x2 y = u i)
    (hw3 : w3 = W3) (hc3 : c3 = b3) (hw4 : w4 = W4) (hc4 : c4 = b4)
    (j : S5000x64.Idx) (i : S50000x64.Idx) (hi0 : (i 0).val = t * 5000 + (j 0).val) (hi1 : (i 1).val = (j 1).val) :
    k1_pay1 (F := Ideal) x0 x1 x2 w3 c3 w4 c4 j
      = Cert.Terms.nodeMLP (F := Ideal) (Cert.Terms.joined (F := Ideal) x a u) W3 b3 W4 b4 i := by
  subst hw3 hc3 hw4 hc4
  obtain ⟨p, q, rfl⟩ : ∃ (p : Fin 5000) (q : Fin 64), j = ix2 p q := ⟨j 0, j 1, eq_ix2 j⟩
  obtain ⟨r, q', rfl⟩ : ∃ (r : Fin 50000) (q' : Fin 64), i = ix2 r q' := ⟨i 0, i 1, eq_ix2 i⟩
  have hr : r.val = t * 5000 + p.val := hi0
  obtain rfl : q' = q := Fin.ext hi1
  rw [pay_apply, nodeMLP_apply]
  congr 1
  funext l
  show join3 x0 x1 x2 p l = Cert.Terms.joined (F := Ideal) x a u (ix2 r l)
  rw [joined_apply]
  unfold join3
  by_cases hl0 : l.val < 64
  · rw [dif_pos hl0, dif_pos hl0]; exact h0 _ _ hr rfl
  · rw [dif_neg hl0, dif_neg hl0]
    by_cases hl1 : l.val < 128
    · rw [dif_pos hl1, dif_pos hl1]; exact h1 _ _ hr rfl
    · rw [dif_neg hl1, dif_neg hl1]; exact h2 _ _ hr rfl

/-! ## Each window's block at a point, read off its array -/

theorem zero2 : (![0, 0] : Fin 2 → Nat) = fun _ => 0 := funext fun a => by fin_cases a <;> rfl
theorem zero1 : (![0] : Fin 1 → Nat) = fun _ => 0 := funext fun a => by fin_cases a <;> rfl

/-- The printed index maps over the ten points: the three row-blocked inputs and the output are at block (t, 0); the
    weights and biases at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = t.val ∧ win1_7.index t (1 : Fin 2) = 0 :=
  (by decide +kernel : ∀ t : Fin grid1.N, _)

section Blocks

variable (V : (c : Dev nD) → (b : Ref sig .tc) → Buf (Elt Ideal) ((c : Thread nD τ).loc b))

/-- Block t of input table 0 holds rows t·5000 … t·5000 + 4999 of the table. -/
theorem iblk_rows0 (c : Dev nD) (t : Fin cfg1.N) (y : S5000x64.Idx) (i : S50000x64.Idx)
    (hi0 : (i 0).val = t.val * 5000 + (y 0).val) (hi1 : (i 1).val = (y 1).val) :
    (iblk1 V c 0 t : Vec Ideal S5000x64 .f32) y = ((V c (Pipeline.arrRef spec1 0)) : S50000x64.Idx → Elt Ideal .f32) i := by
  obtain ⟨e00, e01, e10, e11, e20, e21, e30, e31, e40, e50, e51, e60, e70, e71⟩ := idx_facts t
  unfold iblk1
  rw [View.read_apply]
  show (V c (Pipeline.arrRef spec1 0)) _ = (V c (Pipeline.arrRef spec1 0)) _
  congr 1
  funext a
  apply Fin.ext
  match a with
  | ⟨0, _⟩ => show win1_0.index t 0 * 5000 + 1 * (y 0).val = (i 0).val; rw [e00, hi0]; omega
  | ⟨1, _⟩ => show win1_0.index t 1 * 64 + 1 * (y 1).val = (i 1).val; rw [e01, hi1]; omega

/-- Block t of input table 1 holds rows t·5000 … t·5000 + 4999 of the table. -/
theorem iblk_rows1 (c : Dev nD) (t : Fin cfg1.N) (y : S5000x64.Idx) (i : S50000x64.Idx)
    (hi0 : (i 0).val = t.val * 5000 + (y 0).val) (hi1 : (i 1).val = (y 1).val) :
    (iblk1 V c 1 t : Vec Ideal S5000x64 .f32) y = ((V c (Pipeline.arrRef spec1 1)) : S50000x64.Idx → Elt Ideal .f32) i := by
  obtain ⟨e00, e01, e10, e11, e20, e21, e30, e31, e40, e50, e51, e60, e70, e71⟩ := idx_facts t
  unfold iblk1
  rw [View.read_apply]
  show (V c (Pipeline.arrRef spec1 1)) _ = (V c (Pipeline.arrRef spec1 1)) _
  congr 1
  funext a
  apply Fin.ext
  match a with
  | ⟨0, _⟩ => show win1_1.index t 0 * 5000 + 1 * (y 0).val = (i 0).val; rw [e10, hi0]; omega
  | ⟨1, _⟩ => show win1_1.index t 1 * 64 + 1 * (y 1).val = (i 1).val; rw [e11, hi1]; omega

/-- Block t of input table 2 holds rows t·5000 … t·5000 + 4999 of the table. -/
theorem iblk_rows2 (c : Dev nD) (t : Fin cfg1.N) (y : S5000x64.Idx) (i : S50000x64.Idx)
    (hi0 : (i 0).val = t.val * 5000 + (y 0).val) (hi1 : (i 1).val = (y 1).val) :
    (iblk1 V c 2 t : Vec Ideal S5000x64 .f32) y = ((V c (Pipeline.arrRef spec1 2)) : S50000x64.Idx → Elt Ideal .f32) i := by
  obtain ⟨e00, e01, e10, e11, e20, e21, e30, e31, e40, e50, e51, e60, e70, e71⟩ := idx_facts t
  unfold iblk1
  rw [View.read_apply]
  show (V c (Pipeline.arrRef spec1 2)) _ = (V c (Pipeline.arrRef spec1 2)) _
  congr 1
  funext a
  apply Fin.ext
  match a with
  | ⟨0, _⟩ => show win1_2.index t 0 * 5000 + 1 * (y 0).val = (i 0).val; rw [e20, hi0]; omega
  | ⟨1, _⟩ => show win1_2.index t 1 * 64 + 1 * (y 1).val = (i 1).val; rw [e21, hi1]; omega

/-- The block of the first layer's weights is the whole array at every point. -/
theorem iblk_whole3 (c : Dev nD) (t : Fin cfg1.N) :
    (iblk1 V c 3 t : Vec Ideal S192x64 .f32) = ((V c (Pipeline.arrRef spec1 3)) : S192x64.Idx → Elt Ideal .f32) := by
  obtain ⟨e00, e01, e10, e11, e20, e21, e30, e31, e40, e50, e51, e60, e70, e71⟩ := idx_facts t
  funext y
  unfold iblk1
  rw [View.read_apply]
  show (V c (Pipeline.arrRef spec1 3)) _ = (V c (Pipeline.arrRef spec1 3)) y
  congr 1
  funext a
  apply Fin.ext
  match a with
  | ⟨0, _⟩ => show win1_3.index t 0 * 192 + 1 * (y 0).val = (y 0).val; rw [e30]; omega
  | ⟨1, _⟩ => show win1_3.index t 1 * 64 + 1 * (y 1).val = (y 1).val; rw [e31]; omega

/-- The block of the first layer's bias is the whole array at every point. -/
theorem iblk_whole4 (c : Dev nD) (t : Fin cfg1.N) :
    (iblk1 V c 4 t : Vec Ideal S64 .f32) = ((V c (Pipeline.arrRef spec1 4)) : S64.Idx → Elt Ideal .f32) := by
  obtain ⟨e00, e01, e10, e11, e20, e21, e30, e31, e40, e50, e51, e60, e70, e71⟩ := idx_facts t
  funext y
  unfold iblk1
  rw [View.read_apply]
  show (V c (Pipeline.arrRef spec1 4)) _ = (V c (Pipeline.arrRef spec1 4)) y
  congr 1
  funext a
  apply Fin.ext
  match a with
  | ⟨0, _⟩ => show win1_4.index t 0 * 64 + 1 * (y 0).val = (y 0).val; rw [e40]; omega

/-- The block of the second layer's weights is the whole array at every point. -/
theorem iblk_whole5 (c : Dev nD) (t : Fin cfg1.N) :
    (iblk1 V c 5 t : Vec Ideal S64x64 .f32) = ((V c (Pipeline.arrRef spec1 5)) : S64x64.Idx → Elt Ideal .f32) := by
  obtain ⟨e00, e01, e10, e11, e20, e21, e30, e31, e40, e50, e51, e60, e70, e71⟩ := idx_facts t
  funext y
  unfold iblk1
  rw [View.read_apply]
  show (V c (Pipeline.arrRef spec1 5)) _ = (V c (Pipeline.arrRef spec1 5)) y
  congr 1
  funext a
  apply Fin.ext
  match a with
  | ⟨0, _⟩ => show win1_5.index t 0 * 64 + 1 * (y 0).val = (y 0).val; rw [e50]; omega
  | ⟨1, _⟩ => show win1_5.index t 1 * 64 + 1 * (y 1).val = (y 1).val; rw [e51]; omega

/-- The block of the second layer's bias is the whole array at every point. -/
theorem iblk_whole6 (c : Dev nD) (t : Fin cfg1.N) :
    (iblk1 V c 6 t : Vec Ideal S64 .f32) = ((V c (Pipeline.arrRef spec1 6)) : S64.Idx → Elt Ideal .f32) := by
  obtain ⟨e00, e01, e10, e11, e20, e21, e30, e31, e40, e50, e51, e60, e70, e71⟩ := idx_facts t
  funext y
  unfold iblk1
  rw [View.read_apply]
  show (V c (Pipeline.arrRef spec1 6)) _ = (V c (Pipeline.arrRef spec1 6)) y
  congr 1
  funext a
  apply Fin.ext
  match a with
  | ⟨0, _⟩ => show win1_6.index t 0 * 64 + 1 * (y 0).val = (y 0).val; rw [e60]; omega

/-! ## What a point writes back, the cover, the array -/

/-- What point t writes back is block t of the perceptron of the joined input arrays. -/
theorem flushed_eq (c : Dev nD) (t : Fin cfg1.N) :
    (dat1 (F := Ideal) V c).flushed 7 t = ((cfg1.win 7).blk t).view.read (Elt Ideal) (Cert.Terms.nodeMLP (F := Ideal)
          (Cert.Terms.joined (F := Ideal) (V c (Pipeline.arrRef spec1 0)) (V c (Pipeline.arrRef spec1 1)) (V c (Pipeline.arrRef spec1 2)))
          (V c (Pipeline.arrRef spec1 3)) (V c (Pipeline.arrRef spec1 4)) (V c (Pipeline.arrRef spec1 5)) (V c (Pipeline.arrRef spec1 6))) := by
  show (cfg1.win 7).cut (grid1.coords t) ((dat1 V c).after 7 t) = _
  rw [after1_7]
  unfold out1_7
  rw [View.canon_unit_zero zero2]
  simp only [View.ld_unit_zero (S := S5000x64) zero2, View.ld_unit_zero (S := S192x64) zero2,
    View.ld_unit_zero (S := S64) zero1, View.ld_unit_zero (S := S64x64) zero2]
  obtain ⟨e00, e01, e10, e11, e20, e21, e30, e31, e40, e50, e51, e60, e70, e71⟩ := idx_facts t
  funext j
  rw [View.read_apply]
  show k1_pay1 (F := Ideal) (iblk1 V c 0 t) (iblk1 V c 1 t) (iblk1 V c 2 t) (iblk1 V c 3 t) (iblk1 V c 4 t) (iblk1 V c 5 t)
      (iblk1 V c 6 t) ((win1 7).xinj (grid1.coords t) j)
    = Cert.Terms.nodeMLP (F := Ideal)
          (Cert.Terms.joined (F := Ideal) (V c (Pipeline.arrRef spec1 0)) (V c (Pipeline.arrRef spec1 1)) (V c (Pipeline.arrRef spec1 2)))
          (V c (Pipeline.arrRef spec1 3)) (V c (Pipeline.arrRef spec1 4)) (V c (Pipeline.arrRef spec1 5)) (V c (Pipeline.arrRef spec1 6)) (((View.whole main_v19).slice ((win1 7).rect t)).emb j)
  exact point_eq _ _ _ _ _ _ _ _ _ _ _ _ _ _ t.val (iblk_rows0 V c t) (iblk_rows1 V c t) (iblk_rows2 V c t)
    (iblk_whole3 V c t) (iblk_whole4 V c t) (iblk_whole5 V c t) (iblk_whole6 V c t) _ _
    (by show win1_7.index t 0 * 5000 + 1 * (j 0).val = t.val * 5000 + (j 0).val; rw [e70]; omega)
    (by show win1_7.index t 1 * 64 + 1 * (j 1).val = (j 1).val; rw [e71]; omega)

/-- An index of the output array is in point t's block iff each coordinate is in the block's range on its axis. -/
theorem mem_blk (t : Fin cfg1.N) (i : S50000x64.Idx) :
    i ∈ ((cfg1.win 7).blk t).view.set
      ↔ ∀ a : Fin 2, win1_7.index t a * S5000x64.size a ≤ (i a).val ∧ (i a).val < win1_7.index t a * S5000x64.size a + S5000x64.size a := by
  show i ∈ ((View.whole main_v19).slice (win1_7.rect t)).set ↔ _
  rw [View.set_slice_whole, Rect.mem_set_unit]
  exact Iff.rfl

/-- Row r of the output array is in the block of point r / 5000, and every point writes its block back. -/
theorem cover (i : S50000x64.Idx) :
    ∃ t : Fin cfg1.N, (cfg1.win 7).flush t = true ∧ i ∈ ((cfg1.win 7).blk t).view.set := by
  have hi0 : (i 0).val < 50000 := (i 0).isLt
  have hi1 : (i 1).val < 64 := (i 1).isLt
  have hN : cfg1.N = 10 := N_1
  have hlt : (i 0).val / 5000 < cfg1.N := by rw [hN]; omega
  obtain ⟨t, ht⟩ : ∃ t : Fin cfg1.N, t.val = (i 0).val / 5000 := ⟨⟨(i 0).val / 5000, hlt⟩, rfl⟩
  obtain ⟨e00, e01, e10, e11, e20, e21, e30, e31, e40, e50, e51, e60, e70, e71⟩ := idx_facts t
  refine ⟨t, flush1_7 t, ?_⟩
  rw [mem_blk]
  intro a
  match a with
  | ⟨0, _⟩ => show win1_7.index t 0 * 5000 ≤ (i 0).val ∧ (i 0).val < win1_7.index t 0 * 5000 + 5000; rw [e70, ht]; omega
  | ⟨1, _⟩ => show win1_7.index t 1 * 64 ≤ (i 1).val ∧ (i 1).val < win1_7.index t 1 * 64 + 64; rw [e71]; omega

end Blocks

/-- After the node region its output array is the node perceptron of the three input arrays joined. -/
theorem array_eq (V : (c : Dev nD) → (b : Ref sig .tc) → Buf (Elt Ideal) ((c : Thread nD τ).loc b)) (c : Dev nD) :
    (dat1 (F := Ideal) V c).arrAt 7 cfg1.N
      = Cert.Terms.nodeMLP (F := Ideal)
          (Cert.Terms.joined (F := Ideal) (V c (Pipeline.arrRef spec1 0)) (V c (Pipeline.arrRef spec1 1)) (V c (Pipeline.arrRef spec1 2)))
          (V c (Pipeline.arrRef spec1 3)) (V c (Pipeline.arrRef spec1 4)) (V c (Pipeline.arrRef spec1 5)) (V c (Pipeline.arrRef spec1 6)) :=
  (dat1 (F := Ideal) V c).arrAt_eq_of_cover 7 _ (fun t _ => flushed_eq V c t) cover

end Cert.NodeRegion

end
-- ==== Proof.IndexRange.lean ====
/-
  Under the precondition every source index and every graph index, with a negative one wrapped, lies inside the table it
  indexes; the kernel's guarded row lookups are then the plain gathers.

  The precondition is a conjunction of thirteen one-bit tests; its last two say that every wrapped source index lies in
  0 … 49999 and every wrapped graph index in 0 … 63, each as an "and" over all entries of a mask of the per-entry test.
  The kernel computes the same per-entry test on the same wrapped index (laid as a column, and "and"-ed along that
  column's one entry), broadcasts the resulting bit along the 64 columns of the gathered rows, and selects the gathered
  row where the bit is set. With every bit set the select is the gather.
-/
import proofs.«423583_j24773371363898_1_alg».proof.Proof.Gen.Pre_finite_inputs
import proofs.«423583_j24773371363898_1_alg».proof.Proof.HostTerms
import proofs.«423583_j24773371363898_1_alg».proof.Proof.TakeTerms
import Idealize.ShloMosaic.Lib.ReduceAll
import Idealize.ShloMosaic.Lib.StableHlo.Predicate
import Idealize.ShloMosaic.Lib.ValueIdx

set_option maxRecDepth 16384

noncomputable section

namespace Cert.IndexRange

open Idealize.ShloMosaic

/-! ## General facts about one-bit masks and broadcasts -/

/-- A left fold by "and" from 1 over words that are all 1 is 1. -/
theorem foldl_andi_ones {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self]
    exact foldl_andi_ones f l fun n hn => h n (List.mem_cons_of_mem _ hn)

/-- An "and"-reduction, from the initial bit 1, of a mask whose every entry is 1 is 1 at every result index. -/
theorem reduce_andi_ones {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  rw [Host.reduce_eq_foldl, hinit]
  exact foldl_andi_ones x _ fun i _ => hx i

/-- A select on a mask whose every bit is 1 is its first operand. -/
theorem select_of_ones {s : Shape} {α : Type} (c : IVec s 1) (a b : s.Idx → α) (hc : ∀ i, c i = 1#1) :
    select c a b = a := by
  funext i
  show Scalar.select (c i) (a i) (b i) = a i
  rw [hc i]
  exact if_pos rfl

/-- A broadcast reads, at each result index, its operand at one operand index (the same for every operand). -/
theorem bcast_reads {s : Shape} (t : Shape) (dims : Fin s.rank → Fin t.rank) (h : s.BroadcastsInDim t dims) (j : t.Idx) :
    ∃ e : s.Idx, ∀ {α : Type} (x : s.Idx → α), broadcastInDim t dims h x j = x e :=
  ⟨_, fun _ => rfl⟩

/-! ## The kernel's per-row tests, given the per-entry facts -/

open Cert.KernelIdeal.Take in
/-- Where every wrapped source index passes the range test, the kernel's per-edge test bit is 1. -/
theorem srcOk_one (r : IVec Cert.KernelIdeal.S1000000 32)
    (hw : ∀ e, IntOp.andi (IntOp.cmpi .sge (wrapSrc r e) 0#32) (IntOp.cmpi .sle (wrapSrc r e) 49999#32) = 1#1)
    (j : Cert.KernelIdeal.S1000000.Idx) : srcOk r j = 1#1 := by
  unfold srcOk
  refine reduce_andi_ones _ _ _ _ rfl (fun i => ?_) j
  obtain ⟨e, he⟩ := bcast_reads (s := Cert.KernelIdeal.S1000000) Cert.KernelIdeal.S1000000x1 _ Cert.KernelIdeal.Gen.bcast_S1000000_S1000000x1_0 i
  show IntOp.andi (IntOp.cmpi .sge (srcStart r i) 0#32) (IntOp.cmpi .sle (srcStart r i) 49999#32) = 1#1
  rw [show srcStart r i = wrapSrc r e from he _]
  exact hw e

open Cert.KernelIdeal.Take in
/-- Where every wrapped graph index passes the range test, the kernel's per-node test bit is 1. -/
theorem batchOk_one (b : IVec Cert.KernelIdeal.S50000 32)
    (hw : ∀ n, IntOp.andi (IntOp.cmpi .sge (wrapBatch b n) 0#32) (IntOp.cmpi .sle (wrapBatch b n) 63#32) = 1#1)
    (j : Cert.KernelIdeal.S50000.Idx) : batchOk b j = 1#1 := by
  unfold batchOk
  refine reduce_andi_ones _ _ _ _ rfl (fun i => ?_) j
  obtain ⟨n, hn⟩ := bcast_reads (s := Cert.KernelIdeal.S50000) Cert.KernelIdeal.S50000x1 _ Cert.KernelIdeal.Gen.bcast_S50000_S50000x1_0 i
  show IntOp.andi (IntOp.cmpi .sge (batchStart b i) 0#32) (IntOp.cmpi .sle (batchStart b i) 63#32) = 1#1
  rw [show batchStart b i = wrapBatch b n from hn _]
  exact hw n

/-! ## The precondition's last two conjuncts, read back -/

variable [Cert.Pre_finite_inputs.Facts]

open Cert.KernelIdeal.Take in
/-- The precondition says of every edge that its wrapped source index lies in 0 … 49999, and of every node that its
    wrapped graph index lies in 0 … 63. (The first eleven conjuncts, the finiteness tests, stay one unopened bit.) -/
theorem pre_ranges
    (a0 : FVec Ideal Cert.Pre_finite_inputs.S50000x64 .f32) (a1 : IVec Cert.Pre_finite_inputs.S2x1000000 32)
    (a2 : FVec Ideal Cert.Pre_finite_inputs.S1000000x64 .f32) (a3 : FVec Ideal Cert.Pre_finite_inputs.S64x64 .f32)
    (a4 : IVec Cert.Pre_finite_inputs.S50000 32) (a5 : FVec Ideal Cert.Pre_finite_inputs.S128x64 .f32)
    (a6 : FVec Ideal Cert.Pre_finite_inputs.S64 .f32) (a7 : FVec Ideal Cert.Pre_finite_inputs.S64x64 .f32)
    (a8 : FVec Ideal Cert.Pre_finite_inputs.S64 .f32) (a9 : FVec Ideal Cert.Pre_finite_inputs.S192x64 .f32)
    (a10 : FVec Ideal Cert.Pre_finite_inputs.S64 .f32) (a11 : FVec Ideal Cert.Pre_finite_inputs.S64x64 .f32)
    (a12 : FVec Ideal Cert.Pre_finite_inputs.S64 .f32)
    (hpre : Cert.Pre_finite_inputs.fn (F := Ideal) a0 a1 a2 a3 a4 a5 a6 a7 a8 a9 a10 a11 a12 = fun _ => 1#1) :
    (∀ e, IntOp.andi (IntOp.cmpi .sge (wrapSrc (Cert.Terms.srcOf a1) e) 0#32)
        (IntOp.cmpi .sle (wrapSrc (Cert.Terms.srcOf a1) e) 49999#32) = 1#1) ∧
    (∀ n, IntOp.andi (IntOp.cmpi .sge (wrapBatch a4 n) 0#32) (IntOp.cmpi .sle (wrapBatch a4 n) 63#32) = 1#1) := by
  haveI : Subsingleton Cert.Pre_finite_inputs.S_.Idx := ⟨fun _ _ => funext fun d => d.elim0⟩
  have h0 := congrFun hpre ValueIdx.ix0
  dsimp only [Cert.Pre_finite_inputs.fn, Cert.Pre_finite_inputs.fn_part1, Cert.Pre_finite_inputs.fn_part2,
    Cert.Pre_finite_inputs.fn_part3, Cert.Pre_finite_inputs.fn_part4] at h0
  obtain ⟨h67, h78⟩ := IntOp.andi_eq_one.1 h0
  obtain ⟨_, h66⟩ := IntOp.andi_eq_one.1 h67
  refine ⟨fun e => ?_, fun n => ?_⟩
  · have := Host.reduce_andi_all _ _ _ _ _ h66 e
    exact this
  · have := Host.reduce_andi_all _ _ _ _ _ h78 n
    exact this

/-! ## The two lookups -/

/-- Where the precondition holds, the kernel's lookup of the node table at the sources is the plain gather. -/
theorem takeSrc_eq_gather
    (a0 : FVec Ideal Cert.Pre_finite_inputs.S50000x64 .f32) (a1 : IVec Cert.Pre_finite_inputs.S2x1000000 32)
    (a2 : FVec Ideal Cert.Pre_finite_inputs.S1000000x64 .f32) (a3 : FVec Ideal Cert.Pre_finite_inputs.S64x64 .f32)
    (a4 : IVec Cert.Pre_finite_inputs.S50000 32) (a5 : FVec Ideal Cert.Pre_finite_inputs.S128x64 .f32)
    (a6 : FVec Ideal Cert.Pre_finite_inputs.S64 .f32) (a7 : FVec Ideal Cert.Pre_finite_inputs.S64x64 .f32)
    (a8 : FVec Ideal Cert.Pre_finite_inputs.S64 .f32) (a9 : FVec Ideal Cert.Pre_finite_inputs.S192x64 .f32)
    (a10 : FVec Ideal Cert.Pre_finite_inputs.S64 .f32) (a11 : FVec Ideal Cert.Pre_finite_inputs.S64x64 .f32)
    (a12 : FVec Ideal Cert.Pre_finite_inputs.S64 .f32)
    (hpre : Cert.Pre_finite_inputs.fn (F := Ideal) a0 a1 a2 a3 a4 a5 a6 a7 a8 a9 a10 a11 a12 = fun _ => 1#1)
    (x : FVec Ideal Cert.ReferenceIdeal.S50000x64 .f32) :
    Cert.KernelIdeal.Take.takeSrc (F := Ideal) x (Cert.Terms.srcOf a1) = Cert.Terms.gatherSrc (F := Ideal) x (Cert.Terms.srcOf a1) := by
  have hw := (pre_ranges a0 a1 a2 a3 a4 a5 a6 a7 a8 a9 a10 a11 a12 hpre).1
  unfold Cert.KernelIdeal.Take.takeSrc
  rw [select_of_ones _ _ _ fun i => (bcast_reads _ _ _ i).elim fun e he => (he _).trans (srcOk_one _ hw e)]
  rfl

/-- Where the precondition holds, the kernel's lookup of the graph table at the nodes' graphs is the plain gather. -/
theorem takeBatch_eq_gather
    (a0 : FVec Ideal Cert.Pre_finite_inputs.S50000x64 .f32) (a1 : IVec Cert.Pre_finite_inputs.S2x1000000 32)
    (a2 : FVec Ideal Cert.Pre_finite_inputs.S1000000x64 .f32) (a3 : FVec Ideal Cert.Pre_finite_inputs.S64x64 .f32)
    (a4 : IVec Cert.Pre_finite_inputs.S50000 32) (a5 : FVec Ideal Cert.Pre_finite_inputs.S128x64 .f32)
    (a6 : FVec Ideal Cert.Pre_finite_inputs.S64 .f32) (a7 : FVec Ideal Cert.Pre_finite_inputs.S64x64 .f32)
    (a8 : FVec Ideal Cert.Pre_finite_inputs.S64 .f32) (a9 : FVec Ideal Cert.Pre_finite_inputs.S192x64 .f32)
    (a10 : FVec Ideal Cert.Pre_finite_inputs.S64 .f32) (a11 : FVec Ideal Cert.Pre_finite_inputs.S64x64 .f32)
    (a12 : FVec Ideal Cert.Pre_finite_inputs.S64 .f32)
    (hpre : Cert.Pre_finite_inputs.fn (F := Ideal) a0 a1 a2 a3 a4 a5 a6 a7 a8 a9 a10 a11 a12 = fun _ => 1#1)
    (u : FVec Ideal Cert.ReferenceIdeal.S64x64 .f32) :
    Cert.KernelIdeal.Take.takeBatch (F := Ideal) u a4 = Cert.Terms.gatherBatch (F := Ideal) u a4 := by
  have hw := (pre_ranges a0 a1 a2 a3 a4 a5 a6 a7 a8 a9 a10 a11 a12 hpre).2
  unfold Cert.KernelIdeal.Take.takeBatch
  rw [select_of_ones _ _ _ fun i => (bcast_reads _ _ _ i).elim fun n hn => (hn _).trans (batchOk_one _ hw n)]
  rfl

end Cert.IndexRange

end
-- ==== Proof.Bridge.lean ====
/-
  The idealized kernel's result as a function of its arguments.

  The buffer contents are followed from the launch to the return: the first stretches of host operations build the edge
  perceptron's input [x[src] | edge attributes] (the lookup with its range guard); the edge region leaves the edge
  perceptron of it; the next stretches take the mean of the edge rows arriving at each node and look the graph table up
  at the nodes' graphs (again with the guard); the node region leaves the node perceptron of [x | mean | u[batch]].
  Under the precondition both guards pass everywhere, the guarded lookups are the plain gathers, and the result is the
  layer's term of the arguments — the very term the reference computes.
-/
import proofs.«423583_j24773371363898_1_alg».proof.Defs
import proofs.«423583_j24773371363898_1_alg».proof.Proof.RunValue
import proofs.«423583_j24773371363898_1_alg».proof.Proof.Stretches
import proofs.«423583_j24773371363898_1_alg».proof.Proof.TakeStretch
import proofs.«423583_j24773371363898_1_alg».proof.Proof.EdgeRegion
import proofs.«423583_j24773371363898_1_alg».proof.Proof.NodeRegion
import proofs.«423583_j24773371363898_1_alg».proof.Proof.IndexRange

set_option maxRecDepth 16384

noncomputable section

namespace Cert.KernelIdeal.Bridge

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-! ## Before the edge region -/

theorem W1_v1 (c : Dev nD) : (W1 m ρ c (Proc.devRef .tc main_v1) : IVec S1000000 32) = Cert.Terms.srcOf (m ((c : Thread nD τ).loc main_arg1)) :=
  Stretch.src_hostOps0 (W0 m ρ c)

theorem W1_arg0 (c : Dev nD) : W1 m ρ c (Proc.devRef .tc main_arg0) = (m ((c : Thread nD τ).loc main_arg0)) :=
  Stretch.keep_hostOps0_main_arg0 (W0 m ρ c)

theorem W2_arg2 (c : Dev nD) : W2 m ρ c (Proc.devRef .tc main_arg2) = (m ((c : Thread nD τ).loc main_arg2)) :=
  (Stretch.keep_hostOps0_1_main_arg2 (W1 m ρ c)).trans (Stretch.keep_hostOps0_main_arg2 (W0 m ρ c))

/-- The looked-up source rows. -/
theorem W2_v4 (c : Dev nD) : (W2 m ρ c (Proc.devRef .tc main_v4) : FVec Ideal S1000000x64 .f32)
    = Take.takeSrc (F := Ideal) (m ((c : Thread nD τ).loc main_arg0)) (Cert.Terms.srcOf (m ((c : Thread nD τ).loc main_arg1))) :=
  (Stretch.take_hostOps0_1 (W1 m ρ c)).trans (congr (congrArg (Take.takeSrc (F := Ideal)) (W1_arg0 m ρ c)) (W1_v1 m ρ c))

/-- The edge region's input. -/
theorem W3_v5 (c : Dev nD) : (W3 m ρ c (Proc.devRef .tc main_v5) : FVec Ideal S1000000x128 .f32)
    = Cert.Terms.edgeIn (F := Ideal) (Take.takeSrc (F := Ideal) (m ((c : Thread nD τ).loc main_arg0)) (Cert.Terms.srcOf (m ((c : Thread nD τ).loc main_arg1)))) (m ((c : Thread nD τ).loc main_arg2)) :=
  (Stretch.edgeIn_hostOps0_2 (W2 m ρ c)).trans (congr (congrArg (Cert.Terms.edgeIn (F := Ideal)) (W2_v4 m ρ c)) (W2_arg2 m ρ c))

theorem W3_arg5 (c : Dev nD) : W3 m ρ c (Proc.devRef .tc main_arg5) = (m ((c : Thread nD τ).loc main_arg5)) :=
  (Stretch.keep_hostOps0_2_main_arg5 (W2 m ρ c)).trans ((Stretch.keep_hostOps0_1_main_arg5 (W1 m ρ c)).trans (Stretch.keep_hostOps0_main_arg5 (W0 m ρ c)))

theorem W3_arg6 (c : Dev nD) : W3 m ρ c (Proc.devRef .tc main_arg6) = (m ((c : Thread nD τ).loc main_arg6)) :=
  (Stretch.keep_hostOps0_2_main_arg6 (W2 m ρ c)).trans ((Stretch.keep_hostOps0_1_main_arg6 (W1 m ρ c)).trans (Stretch.keep_hostOps0_main_arg6 (W0 m ρ c)))

theorem W3_arg7 (c : Dev nD) : W3 m ρ c (Proc.devRef .tc main_arg7) = (m ((c : Thread nD τ).loc main_arg7)) :=
  (Stretch.keep_hostOps0_2_main_arg7 (W2 m ρ c)).trans ((Stretch.keep_hostOps0_1_main_arg7 (W1 m ρ c)).trans (Stretch.keep_hostOps0_main_arg7 (W0 m ρ c)))

theorem W3_arg8 (c : Dev nD) : W3 m ρ c (Proc.devRef .tc main_arg8) = (m ((c : Thread nD τ).loc main_arg8)) :=
  (Stretch.keep_hostOps0_2_main_arg8 (W2 m ρ c)).trans ((Stretch.keep_hostOps0_1_main_arg8 (W1 m ρ c)).trans (Stretch.keep_hostOps0_main_arg8 (W0 m ρ c)))

/-- The destinations, still there when the edge region is entered. -/
theorem W3_v3 (c : Dev nD) : (W3 m ρ c (Proc.devRef .tc main_v3) : IVec S1000000 32) = Cert.Terms.dstOf (m ((c : Thread nD τ).loc main_arg1)) :=
  (Stretch.keep_hostOps0_2_main_v3 (W2 m ρ c)).trans ((Stretch.keep_hostOps0_1_main_v3 (W1 m ρ c)).trans (Stretch.dst_hostOps0 (W0 m ρ c)))

/-! ## The edge region -/

/-- The edge rows: the edge perceptron of [x[src] | edge attributes]. -/
abbrev edgeRows (c : Dev nD) : FVec Ideal Cert.ReferenceIdeal.S1000000x64 .f32 :=
  Cert.Terms.edgeMLP (F := Ideal) (Cert.Terms.edgeIn (F := Ideal) (Take.takeSrc (F := Ideal) (m ((c : Thread nD τ).loc main_arg0)) (Cert.Terms.srcOf (m ((c : Thread nD τ).loc main_arg1)))) (m ((c : Thread nD τ).loc main_arg2)))
    (m ((c : Thread nD τ).loc main_arg5)) (m ((c : Thread nD τ).loc main_arg6)) (m ((c : Thread nD τ).loc main_arg7)) (m ((c : Thread nD τ).loc main_arg8))

theorem W4_v6 (c : Dev nD) : (W4 m ρ c (Proc.devRef .tc main_v6) : FVec Ideal S1000000x64 .f32) = edgeRows m c :=
  (W4_arr m ρ c 5).trans ((Cert.EdgeRegion.array_eq (V3 m ρ) c).trans
    (congr (congr (congr (congr (congrArg (Cert.Terms.edgeMLP (F := Ideal)) (W3_v5 m ρ c)) (W3_arg5 m ρ c)) (W3_arg6 m ρ c)) (W3_arg7 m ρ c)) (W3_arg8 m ρ c)))

theorem W4_v3 (c : Dev nD) : (W4 m ρ c (Proc.devRef .tc main_v3) : IVec S1000000 32) = Cert.Terms.dstOf (m ((c : Thread nD τ).loc main_arg1)) :=
  (W4_of_ne m ρ c main_v3 (by decide)).trans (W3_v3 m ρ c)

/-! ## Between the regions -/

/-- The sum of the edge rows into their destination rows, in the kernel program's spelling. -/
def sumsK (d : IVec S1000000 32) (e : FVec Ideal S1000000x64 .f32) : FVec Ideal S50000x64 .f32 :=
  Host.scatterAdd scatter_S50000x64_S1000000x1_S1000000x64_1_0_0_1 (broadcastInDim S50000x64 ![] bcast_S_S50000x64 (constant S_ .f32 0x00000000#32))
    (broadcastInDim S1000000x1 ![0] bcast_S1000000_S1000000x1_0 d) e

/-- The number of edges arriving at each node. -/
def countsK (d : IVec S1000000 32) : FVec Ideal S50000 .f32 :=
  Host.scatterAdd scatter_S50000_S1000000x1_S1000000_n_0_0_1 (broadcastInDim S50000 ![] bcast_S_S50000 (constant S_ .f32 0x00000000#32))
    (broadcastInDim S1000000x1 ![0] bcast_S1000000_S1000000x1_0 d) (broadcastInDim S1000000 ![] bcast_S_S1000000 (constant S_ .f32 0x3F800000#32))

/-- The clip: the larger of a scalar laid along the nodes and a vector. -/
def clipK (o : FVec Ideal S_ .f32) (n : FVec Ideal S50000 .f32) : FVec Ideal S50000 .f32 :=
  maximumf (broadcastInDim S50000 ![] bcast_S_S50000 (id o)) n

/-- The quotient of a node table by a vector laid along each row. -/
def quotK (s : FVec Ideal S50000x64 .f32) (g : FVec Ideal S50000 .f32) : FVec Ideal S50000x64 .f32 :=
  Host.divf s (broadcastInDim S50000x64 ![0, 1] bcast_S50000x1_S50000x64_0_1 (broadcastInDim S50000x1 ![0] bcast_S50000_S50000x1_0 g))

/-- The mean of the edge rows arriving at each node, in the kernel program's spelling … -/
def meanK (d : IVec S1000000 32) (e : FVec Ideal S1000000x64 .f32) : FVec Ideal S50000x64 .f32 :=
  quotK (sumsK d e) (clipK (constant S_ .f32 0x3F800000#32) (countsK d))

/-- … is the reference's: the same operations, the same constants. -/
theorem meanK_eq (d : IVec S1000000 32) (e : FVec Ideal S1000000x64 .f32) : meanK d e = Cert.Terms.scatterMean (F := Ideal) d e := rfl

theorem W6_v9 (c : Dev nD) : (W6 m ρ c (Proc.devRef .tc main_v9) : FVec Ideal S50000x64 .f32) = sumsK (Cert.Terms.dstOf (m ((c : Thread nD τ).loc main_arg1))) (edgeRows m c) :=
  (Stretch.keep_hostOps1_1_main_v9 (W5 m ρ c)).trans ((Stretch.sums_hostOps1 (W4 m ρ c)).trans
    (congr (congrArg sumsK (W4_v3 m ρ c)) (W4_v6 m ρ c)))

theorem W5_v13 (c : Dev nD) : (W5 m ρ c (Proc.devRef .tc main_v13) : FVec Ideal S50000 .f32) = countsK (Cert.Terms.dstOf (m ((c : Thread nD τ).loc main_arg1))) :=
  (Stretch.counts_hostOps1 (W4 m ρ c)).trans (congrArg countsK (W4_v3 m ρ c))

theorem W6_v14 (c : Dev nD) : (W6 m ρ c (Proc.devRef .tc main_v14) : FVec Ideal S50000 .f32)
    = clipK (constant S_ .f32 0x3F800000#32) (countsK (Cert.Terms.dstOf (m ((c : Thread nD τ).loc main_arg1)))) :=
  (Stretch.clip_hostOps1_1 (W5 m ρ c)).trans (congr (congrArg clipK (Stretch.one_hostOps1 (W4 m ρ c))) (W5_v13 m ρ c))

/-- The mean of the edge rows arriving at each node. -/
theorem W8_v17 (c : Dev nD) : (W8 m ρ c (Proc.devRef .tc main_v17) : FVec Ideal S50000x64 .f32)
    = Cert.Terms.scatterMean (F := Ideal) (Cert.Terms.dstOf (m ((c : Thread nD τ).loc main_arg1))) (edgeRows m c) :=
  (Stretch.keep_hostOps1_3_main_v17 (W7 m ρ c)).trans ((Stretch.mean_hostOps1_2 (W6 m ρ c)).trans
    ((congr (congrArg quotK (W6_v9 m ρ c)) (W6_v14 m ρ c)).trans (meanK_eq _ _)))

theorem W8_arg3 (c : Dev nD) : W8 m ρ c (Proc.devRef .tc main_arg3) = (m ((c : Thread nD τ).loc main_arg3)) :=
  (W9_of_ne m ρ c main_arg3 (by decide)).symm.trans (W9_main_arg3 m ρ c)

theorem W8_arg4 (c : Dev nD) : W8 m ρ c (Proc.devRef .tc main_arg4) = (m ((c : Thread nD τ).loc main_arg4)) :=
  (W9_of_ne m ρ c main_arg4 (by decide)).symm.trans (W9_main_arg4 m ρ c)

/-- The looked-up graph rows. -/
theorem W8_v18 (c : Dev nD) : (W8 m ρ c (Proc.devRef .tc main_v18) : FVec Ideal S50000x64 .f32) = Take.takeBatch (F := Ideal) (m ((c : Thread nD τ).loc main_arg3)) (m ((c : Thread nD τ).loc main_arg4)) :=
  (Stretch.take_hostOps1_3 (W7 m ρ c)).trans (congr (congrArg (Take.takeBatch (F := Ideal))
    ((Stretch.keep_hostOps1_3_main_arg3 (W7 m ρ c)).symm.trans (W8_arg3 m ρ c))) ((Stretch.keep_hostOps1_3_main_arg4 (W7 m ρ c)).symm.trans (W8_arg4 m ρ c)))

/-- An array the node region only reads is, when the region is entered, what it is when the region is left. -/
theorem W8_window (c : Dev nD) (w : Fin cfg1.W) (hw : (cfg1.win w).isOut = false) :
    W8 m ρ c (Proc.devRef .tc (Pipeline.arrRef spec1 w)) = W9 m ρ c (Proc.devRef .tc (Pipeline.arrRef spec1 w)) :=
  ((W9_arr m ρ c w).trans (((dat1 (V8 m ρ) c).arrAt_in w hw _).trans (A_eq1 (V8 m ρ) c w))).symm

theorem W8_arg0 (c : Dev nD) : W8 m ρ c (Proc.devRef .tc main_arg0) = (m ((c : Thread nD τ).loc main_arg0)) :=
  (W8_window m ρ c 0 rfl).trans (W9_main_arg0 m ρ c)

theorem W8_arg9 (c : Dev nD) : W8 m ρ c (Proc.devRef .tc main_arg9) = (m ((c : Thread nD τ).loc main_arg9)) :=
  (W8_window m ρ c 3 rfl).trans (W9_main_arg9 m ρ c)

theorem W8_arg10 (c : Dev nD) : W8 m ρ c (Proc.devRef .tc main_arg10) = (m ((c : Thread nD τ).loc main_arg10)) :=
  (W8_window m ρ c 4 rfl).trans (W9_main_arg10 m ρ c)

theorem W8_arg11 (c : Dev nD) : W8 m ρ c (Proc.devRef .tc main_arg11) = (m ((c : Thread nD τ).loc main_arg11)) :=
  (W8_window m ρ c 5 rfl).trans (W9_main_arg11 m ρ c)

theorem W8_arg12 (c : Dev nD) : W8 m ρ c (Proc.devRef .tc main_arg12) = (m ((c : Thread nD τ).loc main_arg12)) :=
  (W8_window m ρ c 6 rfl).trans (W9_main_arg12 m ρ c)

/-! ## The node region, and the result -/

/-- The result buffer when @main returns, before the precondition is used: the node perceptron of
    [x | mean of the edge rows | looked-up graph rows]. -/
theorem W9_v19 (c : Dev nD) : (W9 m ρ c (Proc.devRef .tc main_v19) : FVec Ideal S50000x64 .f32)
    = Cert.Terms.nodeMLP (F := Ideal)
        (Cert.Terms.joined (F := Ideal) (m ((c : Thread nD τ).loc main_arg0)) (Cert.Terms.scatterMean (F := Ideal) (Cert.Terms.dstOf (m ((c : Thread nD τ).loc main_arg1))) (edgeRows m c))
          (Take.takeBatch (F := Ideal) (m ((c : Thread nD τ).loc main_arg3)) (m ((c : Thread nD τ).loc main_arg4))))
        (m ((c : Thread nD τ).loc main_arg9)) (m ((c : Thread nD τ).loc main_arg10)) (m ((c : Thread nD τ).loc main_arg11)) (m ((c : Thread nD τ).loc main_arg12)) :=
  (W9_arr m ρ c 7).trans ((Cert.NodeRegion.array_eq (V8 m ρ) c).trans
    (congr (congr (congr (congr (congrArg (Cert.Terms.nodeMLP (F := Ideal))
      (congr (congr (congrArg (Cert.Terms.joined (F := Ideal)) (W8_arg0 m ρ c)) (W8_v17 m ρ c)) (W8_v18 m ρ c)))
      (W8_arg9 m ρ c)) (W8_arg10 m ρ c)) (W8_arg11 m ρ c)) (W8_arg12 m ρ c)))

/-- Under the precondition the result is the layer's term of the arguments. -/
theorem kernel_value (hpre : Cert.Pre_KernelIdeal m) (c : Dev nD) :
    (W9 m ρ c (Proc.devRef .tc main_v19) : FVec Ideal S50000x64 .f32)
      = Cert.Terms.layer (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W9_v19 m ρ c).trans ?_
  unfold edgeRows
  rw [Cert.IndexRange.takeSrc_eq_gather _ _ _ _ _ _ _ _ _ _ _ _ _ (hpre c) (m ((c : Thread nD τ).loc main_arg0)),
    Cert.IndexRange.takeBatch_eq_gather _ _ _ _ _ _ _ _ _ _ _ _ _ (hpre c) (m ((c : Thread nD τ).loc main_arg3))]
  rfl

end Cert.KernelIdeal.Bridge

end
-- ==== Proof.lean ====
/-
  A message-passing layer of a graph network, over 50000 nodes (64 features), a million edges (64 attributes) and 64
  graphs: each edge's row [x[src] | attributes] goes through a two-layer perceptron with a rectifier; each node takes
  the mean of the rows of the edges arriving at it (zero where none arrives); each node's row
  [x | that mean | u[graph of the node]] goes through a second two-layer perceptron.

  The kernel computes the two perceptrons in two gridded regions, block of rows by block of rows, and does the lookups
  and the scatter mean on the host between them; the reference does everything on the host. A perceptron's row depends
  on the same row of its input only, and a matrix product's entry is the same sum of the same products whichever program
  forms it, so over the extended reals each region's output array is the reference's perceptron of the region's input
  array; no law beyond that is used (no distributivity, so no finiteness). The scatter mean is the same operations
  on both sides.

  The one difference is the row lookup: the kernel's lookup guards the index range and puts a constant pattern where an
  index (after the wrap of a negative one) falls outside the table, while the reference's gather clamps such an index
  into the table. The precondition says that the source indices lie in [-50000, 49999] and the graph indices in
  [-64, 63], which is where the reference's own indexing is in range; there the guard passes everywhere and the two
  lookups are the same gather.

  The three frames are the programs' runs: the two kernels' generated frame certificates, and the reference's run with
  its result dropped. The idealization rewrote nothing, so there is nothing to preserve.
-/
import proofs.«423583_j24773371363898_1_alg».proof.Defs
import proofs.«423583_j24773371363898_1_alg».proof.Proof.Gen.Kernel
import proofs.«423583_j24773371363898_1_alg».proof.Proof.Gen.Kernel.Skeleton
import proofs.«423583_j24773371363898_1_alg».proof.Proof.Gen.Kernel.Launch
import proofs.«423583_j24773371363898_1_alg».proof.Proof.Gen.Kernel.Points
import proofs.«423583_j24773371363898_1_alg».proof.Proof.Gen.Kernel.Frame
import proofs.«423583_j24773371363898_1_alg».proof.Proof.Gen.KernelIdeal
import proofs.«423583_j24773371363898_1_alg».proof.Proof.Gen.KernelIdeal.Skeleton
import proofs.«423583_j24773371363898_1_alg».proof.Proof.Gen.KernelIdeal.Launch
import proofs.«423583_j24773371363898_1_alg».proof.Proof.Gen.KernelIdeal.Points
import proofs.«423583_j24773371363898_1_alg».proof.Proof.Gen.KernelIdeal.Frame
import proofs.«423583_j24773371363898_1_alg».proof.Proof.Gen.ReferenceIdeal
import proofs.«423583_j24773371363898_1_alg».proof.Proof.Gen.Pre_finite_inputs
import proofs.«423583_j24773371363898_1_alg».proof.Proof.Gen.ReferenceIdeal.Run
import proofs.«423583_j24773371363898_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the layer's term of the (agreeing) arguments in their result buffers. -/
theorem algebraic : Cert.algebraic_KernelIdeal_ReferenceIdeal := by
  intro m ρ m' ρ' hpre hagree
  refine ⟨fun c => Cert.Terms.layer (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.Bridge.kernel_value m ρ hpre c), (h c).2⟩) (Cert.KernelIdeal.RunValue.run m ρ)
  · refine (θ_run Cert.ReferenceIdeal.defs _ _).mono (fun r h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2.1,
      (hagree c).2.2.2.2.2.2.2.2.2.2.1, (hagree c).2.2.2.2.2.2.2.2.2.2.2.1, (hagree c).2.2.2.2.2.2.2.2.2.2.2.2]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
